-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S3267x33 : Shape := ⟨2, ![3267, 33]⟩
abbrev S1x3x8x256 : Shape := ⟨4, ![1, 3, 8, 256]⟩
abbrev S33x256 : Shape := ⟨2, ![33, 256]⟩
abbrev S1x3x1x256 : Shape := ⟨4, ![1, 3, 1, 256]⟩
abbrev S3x256 : Shape := ⟨2, ![3, 256]⟩
abbrev S1x256 : Shape := ⟨2, ![1, 256]⟩
abbrev S256 : Shape := ⟨1, ![256]⟩
abbrev S3267x256 : Shape := ⟨2, ![3267, 256]⟩
abbrev S3x33x33x256 : Shape := ⟨4, ![3, 33, 33, 256]⟩
abbrev S1x1x33x256 : Shape := ⟨4, ![1, 1, 33, 256]⟩
abbrev S3x33x256 : Shape := ⟨3, ![3, 33, 256]⟩
abbrev S1x33x256 : Shape := ⟨3, ![1, 33, 256]⟩

abbrev nBuf : Space → Nat
  | .hbm => 5
  | .vmem => 5
  | .smem => 0
  | _ => 0

abbrev bufTy : (tb : Table) → Fin (tcTables nBuf tb) → BufTy
  | .hbm, ⟨0, _⟩ => ⟨S3x33x33x33, .f32⟩
  | .hbm, ⟨1, _⟩ => ⟨S8x3x1024x1024, .f32⟩
  | .hbm, ⟨2, _⟩ => ⟨S3267x33, .f32⟩
  | .hbm, ⟨3, _⟩ => ⟨S3267x33, .bf16⟩
  | .hbm, ⟨4, _⟩ => ⟨S8x3x1024x1024, .f32⟩
  | .local _ .vmem, ⟨0, _⟩ => ⟨S3267x33, .bf16⟩
  | .local _ .vmem, ⟨1, _⟩ => ⟨S1x3x8x256, .f32⟩
  | .local _ .vmem, ⟨2, _⟩ => ⟨S1x3x8x256, .f32⟩
  | .local _ .vmem, ⟨3, _⟩ => ⟨S1x3x8x256, .f32⟩
  | .local _ .vmem, ⟨4, _⟩ => ⟨S1x3x8x256, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 128, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 1 → Memref sig .tc .vmem S3267x33 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x3x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S3x33x33x33_S3267x33 : S3x33x33x33.ShapeCasts S3267x33
  bitsLt_bf16_f32 : FTy.bits .bf16 < FTy.bits .f32
  inb_S3267x33_S3267x33_0_0 : ∀ a, (![0, 0] : Fin 2 → Nat) a + S3267x33.size a ≤ S3267x33.size a
  h_S3267x33 : 0 < S3267x33.numel
  shapeCasts_S3267x33_S3267x33 : S3267x33.ShapeCasts S3267x33
  iota_S33x256_d0_w32 : S33x256.Iotas .tc 32 [0]
  inb_S1x3x8x256_S1x3x1x256_0_0_0_0 : ∀ a, (![0, 0, 0, 0] : Fin 4 → Nat) a + S1x3x1x256.size a ≤ S1x3x8x256.size a
  h_S1x3x1x256 : 0 < S1x3x1x256.numel
  shapeCasts_S1x3x1x256_S3x256 : S1x3x1x256.ShapeCasts S3x256
  slices_S3x256_o0_0_S1x256 : S3x256.Slices ![0, 0] S1x256
  shapeCasts_S1x256_S256 : S1x256.ShapeCasts S256
  slices_S3x256_o1_0_S1x256 : S3x256.Slices ![1, 0] S1x256
  slices_S3x256_o2_0_S1x256 : S3x256.Slices ![2, 0] S1x256
  shapeCasts_S256_S1x256 : S256.ShapeCasts S1x256
  broadcasts_S1x256_S33x256 : S1x256.Broadcasts S33x256
  natLt_1_32 : 1 < 32
  shapeCasts_S3267x256_S3x33x33x256 : S3267x256.ShapeCasts S3x33x33x256
  shapeCasts_S33x256_S1x1x33x256 : S33x256.ShapeCasts S1x1x33x256
  broadcasts_S1x1x33x256_S3x33x33x256 : S1x1x33x256.Broadcasts S3x33x33x256
  reduces_S3x33x33x256_S3x33x256 : S3x33x33x256.Reduces [2] S3x33x256
  shapeCasts_S33x256_S1x33x256 : S33x256.ShapeCasts S1x33x256
  broadcasts_S1x33x256_S3x33x256 : S1x33x256.Broadcasts S3x33x256
  reduces_S3x33x256_S3x256 : S3x33x256.Reduces [1] S3x256
  shapeCasts_S3x256_S1x3x1x256 : S3x256.ShapeCasts S1x3x1x256
  inb_S1x3x8x256_S1x3x1x256_0_0_1_0 : ∀ a, (![0, 0, 1, 0] : Fin 4 → Nat) a + S1x3x1x256.size a ≤ S1x3x8x256.size a
  inb_S1x3x8x256_S1x3x1x256_0_0_2_0 : ∀ a, (![0, 0, 2, 0] : Fin 4 → Nat) a + S1x3x1x256.size a ≤ S1x3x8x256.size a
  inb_S1x3x8x256_S1x3x1x256_0_0_3_0 : ∀ a, (![0, 0, 3, 0] : Fin 4 → Nat) a + S1x3x1x256.size a ≤ S1x3x8x256.size a
  inb_S1x3x8x256_S1x3x1x256_0_0_4_0 : ∀ a, (![0, 0, 4, 0] : Fin 4 → Nat) a + S1x3x1x256.size a ≤ S1x3x8x256.size a
  inb_S1x3x8x256_S1x3x1x256_0_0_5_0 : ∀ a, (![0, 0, 5, 0] : Fin 4 → Nat) a + S1x3x1x256.size a ≤ S1x3x8x256.size a
  inb_S1x3x8x256_S1x3x1x256_0_0_6_0 : ∀ a, (![0, 0, 6, 0] : Fin 4 → Nat) a + S1x3x1x256.size a ≤ S1x3x8x256.size a
  inb_S1x3x8x256_S1x3x1x256_0_0_7_0 : ∀ a, (![0, 0, 7, 0] : Fin 4 → Nat) a + S1x3x1x256.size a ≤ S1x3x8x256.size a
  dot_S3267x33_S33x256_S3267x256_1_0_0_1_n_n_wf : DotDims.WF S3267x33 S33x256 S3267x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3267x33.size a ≤ S3267x33.size a
  hwx0_0 : ∀ i : grid0.Coords, EltTy.bits .bf16 = 32 ∨ (Rect.block (s := S3267x33) S3267x33.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8x256.size a ≤ S8x3x1024x1024.size a
  hwx0_1 : ∀ i : grid0.Coords, EltTy.bits .f32 = 32 ∨ (Rect.block (s := S8x3x1024x1024) S1x3x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x256.size a ≤ S8x3x1024x1024.size a
  hwx0_2 : ∀ i : grid0.Coords, EltTy.bits .f32 = 32 ∨ (Rect.block (s := S8x3x1024x1024) S1x3x8x256.size (cc0_transform_2 i) (hinb0_2 i)).WholeWords (EltTy.packing .f32)

variable [Facts₀]

def dot_S3267x33_S33x256_S3267x256_1_0_0_1_n_n : DotDims S3267x33 S33x256 S3267x256 where
  lhsContracting := [1]
  rhsContracting := [0]
  lhsNonContracting := [0]
  rhsNonContracting := [1]
  lhsBatch := []
  rhsBatch := []
  wf := dot_S3267x33_S33x256_S3267x256_1_0_0_1_n_n_wf

abbrev win0_0 : Pipeline.Window sig grid0 :=
  Pipeline.Window.ofSpec (Memref.whole main_v1) S3267x33.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩
abbrev S1x8x1024x1024 : Shape := ⟨4, ![1, 8, 1024, 1024]⟩

abbrev nBuf : Space → Nat
  | .hbm => 261
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S_, .f32⟩
  | 5 => ⟨S8x1024x1024, .f32⟩
  | 6 => ⟨S8x1024x1024, .f32⟩
  | 7 => ⟨S8x1x1024x1024, .f32⟩
  | 8 => ⟨S8x1024x1024, .f32⟩
  | 9 => ⟨S_, .f32⟩
  | 10 => ⟨S8x1024x1024, .f32⟩
  | 11 => ⟨S8x1024x1024, .f32⟩
  | 12 => ⟨S8x1x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S3x35937, .f32⟩
  | 54 => ⟨S_, .i32⟩
  | 55 => ⟨S8x1024x1024, .i32⟩
  | 56 => ⟨S8x1024x1024, .i32⟩
  | 57 => ⟨S8x1024x1024, .i32⟩
  | 58 => ⟨S_, .i32⟩
  | 59 => ⟨S8x1024x1024, .i32⟩
  | 60 => ⟨S8x1024x1024, .i32⟩
  | 61 => ⟨S8x1024x1024, .i32⟩
  | 62 => ⟨S_, .f32⟩
  | 63 => ⟨S8x3x1024x1024, .f32⟩
  | 64 => ⟨S_, .f32⟩
  | 65 => ⟨S8x1024x1024, .f32⟩
  | 66 => ⟨S8x1024x1024, .f32⟩
  | 67 => ⟨S_, .f32⟩
  | 68 => ⟨S8x1024x1024, .f32⟩
  | 69 => ⟨S8x1024x1024, .f32⟩
  | 70 => ⟨S_, .f32⟩
  | 71 => ⟨S8x1024x1024, .f32⟩
  | 72 => ⟨S8x1024x1024, .f32⟩
  | 73 => ⟨S_, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i32⟩
  | 79 => ⟨S_, .i32⟩
  | 80 => ⟨S8x1024x1024, .i32⟩
  | 81 => ⟨S8x1024x1024, .i1⟩
  | 82 => ⟨S_, .i32⟩
  | 83 => ⟨S8x1024x1024, .i32⟩
  | 84 => ⟨S8x1024x1024, .i32⟩
  | 85 => ⟨S8x1024x1024, .i32⟩
  | 86 => ⟨S8x1024x1024x1, .i32⟩
  | 87 => ⟨S3x8x1024x1024, .f32⟩
  | 88 => ⟨S8x1024x1024, .f32⟩
  | 89 => ⟨S8x1024x1024, .f32⟩
  | 90 => ⟨S1x8x1024x1024, .f32⟩
  | 91 => ⟨S3x8x1024x1024, .f32⟩
  | 92 => ⟨S3x8x1024x1024, .f32⟩
  | 93 => ⟨S8x3x1024x1024, .f32⟩
  | 94 => ⟨S8x3x1024x1024, .f32⟩
  | 95 => ⟨S_, .i32⟩
  | 96 => ⟨S8x1024x1024, .i32⟩
  | 97 => ⟨S8x1024x1024, .i32⟩
  | 98 => ⟨S_, .i32⟩
  | 99 => ⟨S8x1024x1024, .i32⟩
  | 100 => ⟨S8x1024x1024, .i32⟩
  | 101 => ⟨S_, .i32⟩
  | 102 => ⟨S8x1024x1024, .i32⟩
  | 103 => ⟨S8x1024x1024, .i1⟩
  | 104 => ⟨S_, .i32⟩
  | 105 => ⟨S8x1024x1024, .i32⟩
  | 106 => ⟨S8x1024x1024, .i32⟩
  | 107 => ⟨S8x1024x1024, .i32⟩
  | 108 => ⟨S8x1024x1024x1, .i32⟩
  | 109 => ⟨S3x8x1024x1024, .f32⟩
  | 110 => ⟨S8x1024x1024, .f32⟩
  | 111 => ⟨S8x1024x1024, .f32⟩
  | 112 => ⟨S1x8x1024x1024, .f32⟩
  | 113 => ⟨S3x8x1024x1024, .f32⟩
  | 114 => ⟨S3x8x1024x1024, .f32⟩
  | 115 => ⟨S8x3x1024x1024, .f32⟩
  | 116 => ⟨S8x3x1024x1024, .f32⟩
  | 117 => ⟨S_, .f32⟩
  | 118 => ⟨S8x1024x1024, .f32⟩
  | 119 => ⟨S8x1024x1024, .f32⟩
  | 120 => ⟨S_, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i32⟩
  | 126 => ⟨S_, .i32⟩
  | 127 => ⟨S8x1024x1024, .i32⟩
  | _ => ⟨S3x33x33x33, .f32⟩

abbrev hbmTy0_1 (i : Nat) : BufTy := match i % 128 with
  | 0 => ⟨S8x1024x1024, .i1⟩
  | 1 => ⟨S_, .i32⟩
  | 2 => ⟨S8x1024x1024, .i32⟩
  | 3 => ⟨S8x1024x1024, .i32⟩
  | 4 => ⟨S8x1024x1024, .i32⟩
  | 5 => ⟨S8x1024x1024x1, .i32⟩
  | 6 => ⟨S3x8x1024x1024, .f32⟩
  | 7 => ⟨S8x1024x1024, .f32⟩
  | 8 => ⟨S8x1024x1024, .f32⟩
  | 9 => ⟨S1x8x1024x1024, .f32⟩
  | 10 => ⟨S3x8x1024x1024, .f32⟩
  | 11 => ⟨S3x8x1024x1024, .f32⟩
  | 12 => ⟨S8x3x1024x1024, .f32⟩
  | 13 => ⟨S8x3x1024x1024, .f32⟩
  | 14 => ⟨S_, .i32⟩
  | 15 => ⟨S8x1024x1024, .i32⟩
  | 16 => ⟨S8x1024x1024, .i32⟩
  | 17 => ⟨S_, .i32⟩
  | 18 => ⟨S8x1024x1024, .i32⟩
  | 19 => ⟨S8x1024x1024, .i32⟩
  | 20 => ⟨S_, .i32⟩
  | 21 => ⟨S8x1024x1024, .i32⟩
  | 22 => ⟨S8x1024x1024, .i1⟩
  | 23 => ⟨S_, .i32⟩
  | 24 => ⟨S8x1024x1024, .i32⟩
  | 25 => ⟨S8x1024x1024, .i32⟩
  | 26 => ⟨S8x1024x1024, .i32⟩
  | 27 => ⟨S8x1024x1024x1, .i32⟩
  | 28 => ⟨S3x8x1024x1024, .f32⟩
  | 29 => ⟨S8x1024x1024, .f32⟩
  | 30 => ⟨S8x1024x1024, .f32⟩
  | 31 => ⟨S1x8x1024x1024, .f32⟩
  | 32 => ⟨S3x8x1024x1024, .f32⟩
  | 33 => ⟨S3x8x1024x1024, .f32⟩
  | 34 => ⟨S8x3x1024x1024, .f32⟩
  | 35 => ⟨S8x3x1024x1024, .f32⟩
  | 36 => ⟨S_, .f32⟩
  | 37 => ⟨S8x1024x1024, .f32⟩
  | 38 => ⟨S8x1024x1024, .f32⟩
  | 39 => ⟨S_, .f32⟩
  | 40 => ⟨S8x1024x1024, .f32⟩
  | 41 => ⟨S8x1024x1024, .f32⟩
  | 42 => ⟨S_, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i32⟩
  | 48 => ⟨S_, .i32⟩
  | 49 => ⟨S8x1024x1024, .i32⟩
  | 50 => ⟨S8x1024x1024, .i1⟩
  | 51 => ⟨S_, .i32⟩
  | 52 => ⟨S8x1024x1024, .i32⟩
  | 53 => ⟨S8x1024x1024, .i32⟩
  | 54 => ⟨S8x1024x1024, .i32⟩
  | 55 => ⟨S8x1024x1024x1, .i32⟩
  | 56 => ⟨S3x8x1024x1024, .f32⟩
  | 57 => ⟨S8x1024x1024, .f32⟩
  | 58 => ⟨S8x1024x1024, .f32⟩
  | 59 => ⟨S1x8x1024x1024, .f32⟩
  | 60 => ⟨S3x8x1024x1024, .f32⟩
  | 61 => ⟨S3x8x1024x1024, .f32⟩
  | 62 => ⟨S8x3x1024x1024, .f32⟩
  | 63 => ⟨S8x3x1024x1024, .f32⟩
  | 64 => ⟨S_, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i32⟩
  | 70 => ⟨S_, .i32⟩
  | 71 => ⟨S8x1024x1024, .i32⟩
  | 72 => ⟨S8x1024x1024, .i1⟩
  | 73 => ⟨S_, .i32⟩
  | 74 => ⟨S8x1024x1024, .i32⟩
  | 75 => ⟨S8x1024x1024, .i32⟩
  | 76 => ⟨S8x1024x1024, .i32⟩
  | 77 => ⟨S8x1024x1024x1, .i32⟩
  | 78 => ⟨S3x8x1024x1024, .f32⟩
  | 79 => ⟨S8x1024x1024, .f32⟩
  | 80 => ⟨S8x1024x1024, .f32⟩
  | 81 => ⟨S1x8x1024x1024, .f32⟩
  | 82 => ⟨S3x8x1024x1024, .f32⟩
  | 83 => ⟨S3x8x1024x1024, .f32⟩
  | 84 => ⟨S8x3x1024x1024, .f32⟩
  | 85 => ⟨S8x3x1024x1024, .f32⟩
  | 86 => ⟨S_, .f32⟩
  | 87 => ⟨S8x1024x1024, .f32⟩
  | 88 => ⟨S8x1024x1024, .f32⟩
  | 89 => ⟨S_, .i32⟩
  | 90 => ⟨S8x1024x1024, .i32⟩
  | 91 => ⟨S8x1024x1024, .i32⟩
  | 92 => ⟨S_, .i32⟩
  | 93 => ⟨S8x1024x1024, .i32⟩
  | 94 => ⟨S8x1024x1024, .i32⟩
  | 95 => ⟨S_, .i32⟩
  | 96 => ⟨S8x1024x1024, .i32⟩
  | 97 => ⟨S8x1024x1024, .i1⟩
  | 98 => ⟨S_, .i32⟩
  | 99 => ⟨S8x1024x1024, .i32⟩
  | 100 => ⟨S8x1024x1024, .i32⟩
  | 101 => ⟨S8x1024x1024, .i32⟩
  | 102 => ⟨S8x1024x1024x1, .i32⟩
  | 103 => ⟨S3x8x1024x1024, .f32⟩
  | 104 => ⟨S8x1024x1024, .f32⟩
  | 105 => ⟨S8x1024x1024, .f32⟩
  | 106 => ⟨S1x8x1024x1024, .f32⟩
  | 107 => ⟨S3x8x1024x1024, .f32⟩
  | 108 => ⟨S3x8x1024x1024, .f32⟩
  | 109 => ⟨S8x3x1024x1024, .f32⟩
  | 110 => ⟨S8x3x1024x1024, .f32⟩
  | 111 => ⟨S_, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i32⟩
  | 117 => ⟨S_, .i32⟩
  | 118 => ⟨S8x1024x1024, .i32⟩
  | 119 => ⟨S8x1024x1024, .i1⟩
  | 120 => ⟨S_, .i32⟩
  | 121 => ⟨S8x1024x1024, .i32⟩
  | 122 => ⟨S8x1024x1024, .i32⟩
  | 123 => ⟨S8x1024x1024, .i32⟩
  | 124 => ⟨S8x1024x1024x1, .i32⟩
  | 125 => ⟨S3x8x1024x1024, .f32⟩
  | 126 => ⟨S8x1024x1024, .f32⟩
  | 127 => ⟨S8x1024x1024, .f32⟩
  | _ => ⟨S3x33x33x33, .f32⟩

abbrev hbmTy0_2 (i : Nat) : BufTy := match i % 128 with
  | 0 => ⟨S1x8x1024x1024, .f32⟩
  | 1 => ⟨S3x8x1024x1024, .f32⟩
  | 2 => ⟨S3x8x1024x1024, .f32⟩
  | 3 => ⟨S8x3x1024x1024, .f32⟩
  | 4 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_9 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_v40 : Ref sig .tc := ⟨.hbm, 72, rfl⟩
abbrev main_c_13 : Ref sig .tc := ⟨.hbm, 73, rfl⟩
abbrev main_v41 : Ref sig .tc := ⟨.hbm, 74, rfl⟩
abbrev main_v42 : Ref sig .tc := ⟨.hbm, 75, rfl⟩
abbrev main_c_14 : Ref sig .tc := ⟨.hbm, 76, rfl⟩
abbrev main_v43 : Ref sig .tc := ⟨.hbm, 77, rfl⟩
abbrev main_v44 : Ref sig .tc := ⟨.hbm, 78, rfl⟩
abbrev main_c_15 : Ref sig .tc := ⟨.hbm, 79, rfl⟩
abbrev main_v45 : Ref sig .tc := ⟨.hbm, 80, rfl⟩
abbrev main_v46 : Ref sig .tc := ⟨.hbm, 81, rfl⟩
abbrev main_c_16 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_17 : Ref sig .tc := ⟨.hbm, 95, rfl⟩
abbrev main_v59 : Ref sig .tc := ⟨.hbm, 96, rfl⟩
abbrev main_v60 : Ref sig .tc := ⟨.hbm, 97, rfl⟩
abbrev main_c_18 : Ref sig .tc := ⟨.hbm, 98, rfl⟩
abbrev main_v61 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_v78 : Ref sig .tc := ⟨.hbm, 119, rfl⟩
abbrev main_c_22 : Ref sig .tc := ⟨.hbm, 120, rfl⟩
abbrev main_v79 : Ref sig .tc := ⟨.hbm, 121, rfl⟩
abbrev main_v80 : Ref sig .tc := ⟨.hbm, 122, rfl⟩
abbrev main_c_23 : Ref sig .tc := ⟨.hbm, 123, rfl⟩
abbrev main_v81 : Ref sig .tc := ⟨.hbm, 124, rfl⟩
abbrev main_v82 : Ref sig .tc := ⟨.hbm, 125, rfl⟩
abbrev main_c_24 : Ref sig .tc := ⟨.hbm, 126, rfl⟩
abbrev main_v83 : Ref sig .tc := ⟨.hbm, 127, rfl⟩
abbrev main_v84 : Ref sig .tc := ⟨.hbm, 128, rfl⟩
abbrev main_c_25 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_26 : Ref sig .tc := ⟨.hbm, 142, rfl⟩
abbrev main_v97 : Ref sig .tc := ⟨.hbm, 143, rfl⟩
abbrev main_v98 : Ref sig .tc := ⟨.hbm, 144, rfl⟩
abbrev main_c_27 : Ref sig .tc := ⟨.hbm, 145, rfl⟩
abbrev main_v99 : Ref sig .tc := ⟨.hbm, 146, rfl⟩
abbrev main_v100 : Ref sig .tc := ⟨.hbm, 147, rfl⟩
abbrev main_c_28 : Ref sig .tc := ⟨.hbm, 148, rfl⟩
abbrev main_v101 : Ref sig .tc := ⟨.hbm, 149, rfl⟩
abbrev main_v102 : Ref sig .tc := ⟨.hbm, 150, rfl⟩
abbrev main_c_29 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_30 : Ref sig .tc := ⟨.hbm, 164, rfl⟩
abbrev main_v115 : Ref sig .tc := ⟨.hbm, 165, rfl⟩
abbrev main_v116 : Ref sig .tc := ⟨.hbm, 166, rfl⟩
abbrev main_cst_31 : Ref sig .tc := ⟨.hbm, 167, rfl⟩
abbrev main_v117 : Ref sig .tc := ⟨.hbm, 168, rfl⟩
abbrev main_v118 : Ref sig .tc := ⟨.hbm, 169, rfl⟩
abbrev main_c_32 : Ref sig .tc := ⟨.hbm, 170, rfl⟩
abbrev main_v119 : Ref sig .tc := ⟨.hbm, 171, rfl⟩
abbrev main_v120 : Ref sig .tc := ⟨.hbm, 172, rfl⟩
abbrev main_c_33 : Ref sig .tc := ⟨.hbm, 173, rfl⟩
abbrev main_v121 : Ref sig .tc := ⟨.hbm, 174, rfl⟩
abbrev main_v122 : Ref sig .tc := ⟨.hbm, 175, rfl⟩
abbrev main_c_34 : Ref sig .tc := ⟨.hbm, 176, rfl⟩
abbrev main_v123 : Ref sig .tc := ⟨.hbm, 177, rfl⟩
abbrev main_v124 : Ref sig .tc := ⟨.hbm, 178, rfl⟩
abbrev main_c_35 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_36 : Ref sig .tc := ⟨.hbm, 192, rfl⟩
abbrev main_v137 : Ref sig .tc := ⟨.hbm, 193, rfl⟩
abbrev main_v138 : Ref sig .tc := ⟨.hbm, 194, rfl⟩
abbrev main_c_37 : Ref sig .tc := ⟨.hbm, 195, rfl⟩
abbrev main_v139 : Ref sig .tc := ⟨.hbm, 196, rfl⟩
abbrev main_v140 : Ref sig .tc := ⟨.hbm, 197, rfl⟩
abbrev main_c_38 : Ref sig .tc := ⟨.hbm, 198, rfl⟩
abbrev main_v141 : Ref sig .tc := ⟨.hbm, 199, rfl⟩
abbrev main_v142 : Ref sig .tc := ⟨.hbm, 200, rfl⟩
abbrev main_c_39 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_40 : Ref sig .tc := ⟨.hbm, 214, rfl⟩
abbrev main_v155 : Ref sig .tc := ⟨.hbm, 215, rfl⟩
abbrev main_v156 : Ref sig .tc := ⟨.hbm, 216, rfl⟩
abbrev main_c_41 : Ref sig .tc := ⟨.hbm, 217, rfl⟩
abbrev main_v157 : Ref sig .tc := ⟨.hbm, 218, rfl⟩
abbrev main_v158 : Ref sig .tc := ⟨.hbm, 219, rfl⟩
abbrev main_c_42 : Ref sig .tc := ⟨.hbm, 220, rfl⟩
abbrev main_v159 : Ref sig .tc := ⟨.hbm, 221, rfl⟩
abbrev main_v160 : Ref sig .tc := ⟨.hbm, 222, rfl⟩
abbrev main_c_43 : Ref sig .tc := ⟨.hbm, 223, rfl⟩
abbrev main_v161 : Ref sig .tc := ⟨.hbm, 224, rfl⟩
abbrev main_v162 : Ref sig .tc := ⟨.hbm, 225, rfl⟩
abbrev main_c_44 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_c_45 : Ref sig .tc := ⟨.hbm, 239, rfl⟩
abbrev main_v175 : Ref sig .tc := ⟨.hbm, 240, rfl⟩
abbrev main_v176 : Ref sig .tc := ⟨.hbm, 241, rfl⟩
abbrev main_c_46 : Ref sig .tc := ⟨.hbm, 242, rfl⟩
abbrev main_v177 : Ref sig .tc := ⟨.hbm, 243, rfl⟩
abbrev main_v178 : Ref sig .tc := ⟨.hbm, 244, rfl⟩
abbrev main_c_47 : Ref sig .tc := ⟨.hbm, 245, rfl⟩
abbrev main_v179 : Ref sig .tc := ⟨.hbm, 246, rfl⟩
abbrev main_v180 : Ref sig .tc := ⟨.hbm, 247, rfl⟩
abbrev main_c_48 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  bcast_S_S8x1024x1024 : S_.BroadcastsInDim S8x1024x1024 (![] : Fin 0 → Fin S8x1024x1024.rank)
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  shapeCasts_S3x33x33x33_S3x35937 : S3x33x33x33.ShapeCasts S3x35937
  bcast_S_S8x3x1024x1024 : S_.BroadcastsInDim S8x3x1024x1024 (![] : Fin 0 → Fin S8x3x1024x1024.rank)
  bcast_S8x1024x1024_S8x1024x1024x1_0_1_2 : S8x1024x1024.BroadcastsInDim S8x1024x1024x1 (![0, 1, 2] : Fin 3 → Fin S8x1024x1024x1.rank)
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Spec.lean ====
/-
  Trilinear interpolation in a 33×33×33 colour table, as a function on the extended reals.

  A pixel has three colour values R, G, B. Each is scaled by 32 onto the lattice 0..32; the cell of a value is the floor
  of the scaled value, as a 32-bit integer clamped into [0, 31]; its fraction is the scaled value minus the cell. The lower
  neighbour on an axis has weight 1 − fraction, the upper one weight fraction. The interpolated table value for channel
  `c` is the sum over the eight corners (db, dg, dr) ∈ {0,1}³ of the table entry at (cell B + db, cell G + dg, cell R + dr)
  times the product of the three weights, the corners added in lexicographic order onto zero.
-/
import Idealize.ShloMosaic.PureOps.Ideal
import Idealize.ShloMosaic.PureOps.Ideal.Laws
import Idealize.ShloMosaic.Lib.ValueIdx

noncomputable section

namespace Cert.Trilinear

open Idealize.ShloMosaic Idealize.ShloMosaic.ValueIdx

/-- The table's shape: channel, then the blue, green and red lattice coordinates. -/
abbrev SLut : Shape := ⟨4, ![3, 33, 33, 33]⟩
/-- The image's shape: batch, channel, row, column. -/
abbrev SImg : Shape := ⟨4, ![8, 3, 1024, 1024]⟩

/-- A colour value scaled onto the lattice: times the float 32. -/
def scaled (v : EReal) : EReal := v * Ideal.ofBits .f32 0x42000000#32

/-- The lattice cell of a colour value: the floor of the scaled value, converted to a 32-bit integer (the conversion
    saturates), then clamped into [0, 31]. -/
def cell (v : EReal) : BitVec 32 :=
  IntOp.minsi 31#32 (IntOp.maxsi 0#32 (Ideal.fptosi 32 (Ideal.liftRound Int.floor (scaled v))))

/-- The position of a scaled colour value inside its cell. -/
def frac (v : EReal) : EReal := scaled v - (((cell v).toInt : ℝ) : EReal)

/-- The interpolation weight of the lower (`false`) and of the upper (`true`) lattice neighbour. -/
def wt (v : EReal) : Bool → EReal
  | false => Ideal.ofBits .f32 0x3F800000#32 - frac v
  | true => frac v

/-- The table entry of channel `c` at natural lattice coordinates (zero outside the lattice, which is never read). -/
def tab (lut : SLut.Idx → EReal) (c : Fin 3) (b g r : ℕ) : EReal :=
  if h : b < 33 ∧ g < 33 ∧ r < 33 then lut (ix4 c ⟨b, h.1⟩ ⟨g, h.2.1⟩ ⟨r, h.2.2⟩) else 0

/-- One corner's contribution: the table entry at the corner times the product of the three weights,
    blue times green first, then times red. -/
def term (lut : SLut.Idx → EReal) (c : Fin 3) (B G R : EReal) (db dg dr : Bool) : EReal :=
  tab lut c ((cell B).toNat + db.toNat) ((cell G).toNat + dg.toNat) ((cell R).toNat + dr.toNat)
    * ((wt B db * wt G dg) * wt R dr)

/-- The eight corners added onto zero, in lexicographic order of (db, dg, dr). -/
def blend (lut : SLut.Idx → EReal) (c : Fin 3) (B G R : EReal) : EReal :=
  0 + term lut c B G R false false false + term lut c B G R false false true
    + term lut c B G R false true false + term lut c B G R false true true
    + term lut c B G R true false false + term lut c B G R true false true
    + term lut c B G R true true false + term lut c B G R true true true

/-- The interpolated image: at pixel (n, h, w) and channel c, the blend of table channel c at the pixel's three
    colour values (channel 0 is red, 1 green, 2 blue). -/
def G (lut : SLut.Idx → EReal) (x : SImg.Idx → EReal) : SImg.Idx → EReal := fun i =>
  blend lut (i 1) (x (ix4 (i 0) 2 (i 2) (i 3))) (x (ix4 (i 0) 1 (i 2) (i 3))) (x (ix4 (i 0) 0 (i 2) (i 3)))

/-- A cell is a signed integer between 0 and 31. -/
theorem cell_bounds (v : EReal) : 0 ≤ (cell v).toInt ∧ (cell v).toInt ≤ 31 := by
  unfold cell IntOp.minsi IntOp.maxsi
  generalize Ideal.fptosi 32 (Ideal.liftRound Int.floor (scaled v)) = z
  simp only [BitVec.slt, BitVec.toInt_ofNat]
  split <;> split <;> simp_all <;> omega

/-- So as a natural number a cell is at most 31, -/
theorem cell_toNat_le (v : EReal) : (cell v).toNat ≤ 31 := by
  have h := cell_bounds v
  have hlt := (cell v).isLt
  rw [BitVec.toInt_eq_toNat_cond] at h
  split at h <;> omega

/-- and its signed and unsigned readings agree. -/
theorem cell_toInt (v : EReal) : (cell v).toInt = ((cell v).toNat : ℤ) := by
  have h := cell_toNat_le v
  rw [BitVec.toInt_eq_toNat_cond]
  split <;> omega

end Cert.Trilinear

end
-- ==== Proof.Algebra.lean ====
/-
  The arithmetic that joins the two arrangements of the interpolation.

  Contracting the table axis by axis — red, then green, then blue, each time keeping the cell's entry weighted
  `1 − fraction` and the next entry weighted `fraction` — gives a nested expression; expanding it gives the eight-corner
  sum. The expansion uses distributivity, which on the extended reals holds for finite values only: every table entry and
  every weight here is a real number once the inputs are.
-/
import proofs.«120387_j39822936768697_1_alg».proof.Proof.Spec

noncomputable section

namespace Cert.Trilinear

open Idealize.ShloMosaic Idealize.ShloMosaic.ValueIdx

/-- The float word of the scale is the real number 32. -/
theorem scale_eq : Ideal.ofBits .f32 0x42000000#32 = ((32 : ℝ) : EReal) := by
  simp [Ideal.ofBits, Ideal.ieee]
  norm_cast
  norm_num

/-- The float word of the unit weight is the real number 1. -/
theorem one_eq : Ideal.ofBits .f32 0x3F800000#32 = ((1 : ℝ) : EReal) := by
  simp [Ideal.ofBits, Ideal.ieee]
  norm_cast
  norm_num

/-- A real colour value scales to a real number. -/
theorem scaled_coe (q : ℝ) : scaled (q : EReal) = ((q * 32 : ℝ) : EReal) := by
  unfold scaled; rw [scale_eq, ← EReal.coe_mul]

/-- Its fraction is real, -/
theorem frac_coe (q : ℝ) : frac (q : EReal) = ((q * 32 - ((cell (q : EReal)).toInt : ℝ) : ℝ) : EReal) := by
  unfold frac; rw [scaled_coe, ← EReal.coe_sub]

/-- and so are both of its weights. -/
theorem wt_real (v : EReal) (hv : ∃ q : ℝ, v = (q : EReal)) (d : Bool) : ∃ a : ℝ, wt v d = (a : EReal) := by
  obtain ⟨q, rfl⟩ := hv
  cases d
  · exact ⟨1 - (q * 32 - ((cell (q : EReal)).toInt : ℝ)), by
      show Ideal.ofBits .f32 0x3F800000#32 - frac (q : EReal) = _
      rw [one_eq, frac_coe, ← EReal.coe_sub]⟩
  · exact ⟨q * 32 - ((cell (q : EReal)).toInt : ℝ), frac_coe q⟩

/-- A table entry at natural coordinates inside the lattice is the table's entry there. -/
theorem tab_eq (lut : SLut.Idx → EReal) (c : Fin 3) (b g r : ℕ) (hb : b < 33) (hg : g < 33) (hr : r < 33) :
    lut (ix4 c ⟨b, hb⟩ ⟨g, hg⟩ ⟨r, hr⟩) = tab lut c b g r := by
  unfold tab; rw [dif_pos ⟨hb, hg, hr⟩]

/-- Every table entry at natural coordinates is real when the table is. -/
theorem tab_real (lut : SLut.Idx → EReal) (hlut : ∀ i, ∃ q : ℝ, lut i = (q : EReal)) (c : Fin 3) (b g r : ℕ) :
    ∃ q : ℝ, tab lut c b g r = (q : EReal) := by
  unfold tab
  split
  · exact hlut _
  · exact ⟨0, rfl⟩

/-- The expansion over the reals: the nested contraction is the eight-corner sum. -/
theorem nested_eq_corners (l000 l001 l010 l011 l100 l101 l110 l111 a0 a1 b0 b1 c0 c1 : ℝ) :
    (((l000 : EReal) * a0 + l001 * a1) * b0 + ((l010 : EReal) * a0 + l011 * a1) * b1) * c0
      + (((l100 : EReal) * a0 + l101 * a1) * b0 + ((l110 : EReal) * a0 + l111 * a1) * b1) * c1
    = 0 + (l000 : EReal) * ((c0 * b0) * a0) + (l001 : EReal) * ((c0 * b0) * a1)
        + (l010 : EReal) * ((c0 * b1) * a0) + (l011 : EReal) * ((c0 * b1) * a1)
        + (l100 : EReal) * ((c1 * b0) * a0) + (l101 : EReal) * ((c1 * b0) * a1)
        + (l110 : EReal) * ((c1 * b1) * a0) + (l111 : EReal) * ((c1 * b1) * a1) := by
  simp only [← EReal.coe_mul, ← EReal.coe_add, zero_add]
  congr 1
  ring

/-- The nested contraction of a real table at real colour values is the blend. -/
theorem nested_eq_blend (lut : SLut.Idx → EReal) (hlut : ∀ i, ∃ q : ℝ, lut i = (q : EReal)) (c : Fin 3) (B G R : EReal)
    (hB : ∃ q : ℝ, B = (q : EReal)) (hG : ∃ q : ℝ, G = (q : EReal)) (hR : ∃ q : ℝ, R = (q : EReal)) :
    ((tab lut c (cell B).toNat (cell G).toNat (cell R).toNat * wt R false
          + tab lut c (cell B).toNat (cell G).toNat ((cell R).toNat + 1) * wt R true) * wt G false
        + (tab lut c (cell B).toNat ((cell G).toNat + 1) (cell R).toNat * wt R false
          + tab lut c (cell B).toNat ((cell G).toNat + 1) ((cell R).toNat + 1) * wt R true) * wt G true) * wt B false
      + ((tab lut c ((cell B).toNat + 1) (cell G).toNat (cell R).toNat * wt R false
          + tab lut c ((cell B).toNat + 1) (cell G).toNat ((cell R).toNat + 1) * wt R true) * wt G false
        + (tab lut c ((cell B).toNat + 1) ((cell G).toNat + 1) (cell R).toNat * wt R false
          + tab lut c ((cell B).toNat + 1) ((cell G).toNat + 1) ((cell R).toNat + 1) * wt R true) * wt G true) * wt B true
    = blend lut c B G R := by
  obtain ⟨a0, ha0⟩ := wt_real R hR false
  obtain ⟨a1, ha1⟩ := wt_real R hR true
  obtain ⟨b0, hb0⟩ := wt_real G hG false
  obtain ⟨b1, hb1⟩ := wt_real G hG true
  obtain ⟨c0, hc0⟩ := wt_real B hB false
  obtain ⟨c1, hc1⟩ := wt_real B hB true
  obtain ⟨l000, h000⟩ := tab_real lut hlut c (cell B).toNat (cell G).toNat (cell R).toNat
  obtain ⟨l001, h001⟩ := tab_real lut hlut c (cell B).toNat (cell G).toNat ((cell R).toNat + 1)
  obtain ⟨l010, h010⟩ := tab_real lut hlut c (cell B).toNat ((cell G).toNat + 1) (cell R).toNat
  obtain ⟨l011, h011⟩ := tab_real lut hlut c (cell B).toNat ((cell G).toNat + 1) ((cell R).toNat + 1)
  obtain ⟨l100, h100⟩ := tab_real lut hlut c ((cell B).toNat + 1) (cell G).toNat (cell R).toNat
  obtain ⟨l101, h101⟩ := tab_real lut hlut c ((cell B).toNat + 1) (cell G).toNat ((cell R).toNat + 1)
  obtain ⟨l110, h110⟩ := tab_real lut hlut c ((cell B).toNat + 1) ((cell G).toNat + 1) (cell R).toNat
  obtain ⟨l111, h111⟩ := tab_real lut hlut c ((cell B).toNat + 1) ((cell G).toNat + 1) ((cell R).toNat + 1)
  unfold blend term
  simp only [Bool.toNat_false, Bool.toNat_true, Nat.add_zero]
  rw [ha0, ha1, hb0, hb1, hc0, hc1, h000, h001, h010, h011, h100, h101, h110, h111]
  exact nested_eq_corners l000 l001 l010 l011 l100 l101 l110 l111 a0 a1 b0 b1 c0 c1

end Cert.Trilinear

end
-- ==== Proof.KernelRowDef.lean ====
/-
  One image row of the kernel body, as a pure function of the table block and of the row's three colour lines.

  The body treats its eight rows alike. For a row it scales each colour line by 32 (`chan`), takes cells and fractions
  (`cellV`, `fracV`), and builds per axis a 33 × 256 weight matrix (`hot`) whose column `w` holds `1 − fraction` at the
  cell's row, `fraction` at the row after it and zero elsewhere. The red weights contract the table's red axis in a
  matrix product (table rows are (channel, blue, green) triples, 3·33·33 = 3267 of them); the green weights multiply the
  result and are summed over green; the blue weights multiply that and are summed over blue.
-/
import proofs.«120387_j39822936768697_1_alg».proof.Proof.Gen.KernelIdeal

noncomputable section

namespace Cert.KernelIdeal.Row

open Idealize.ShloMosaic Cert.KernelIdeal Cert.KernelIdeal.Gen

variable {F : FTy → Type} [FloatOps F]

/-- The table block's row that holds channel `c`, blue `b`, green `g`: the table's first three axes in row-major order. -/
def rowIx (c : Fin 3) (b g : Fin 33) : Fin 3267 :=
  ⟨(c.val * 33 + b.val) * 33 + g.val, by have := c.isLt; have := b.isLt; have := g.isLt; omega⟩

/-- The red line of the row block (channel 0), scaled by 32. -/
def chan0 (X : Vec F S1x3x1x256 .f32) : FVec F S256 .f32 :=
  mulf (shapeCast S256 (extractStridedSlice S1x256 ![0, 0] (shapeCast S3x256 X shapeCasts_S1x3x1x256_S3x256) slices_S3x256_o0_0_S1x256) shapeCasts_S1x256_S256)
    (broadcast S256 (Scalar.ofBits .f32 0x42000000#32))

/-- The green line (channel 1), scaled by 32. -/
def chan1 (X : Vec F S1x3x1x256 .f32) : FVec F S256 .f32 :=
  mulf (shapeCast S256 (extractStridedSlice S1x256 ![1, 0] (shapeCast S3x256 X shapeCasts_S1x3x1x256_S3x256) slices_S3x256_o1_0_S1x256) shapeCasts_S1x256_S256)
    (broadcast S256 (Scalar.ofBits .f32 0x42000000#32))

/-- The blue line (channel 2), scaled by 32. -/
def chan2 (X : Vec F S1x3x1x256 .f32) : FVec F S256 .f32 :=
  mulf (shapeCast S256 (extractStridedSlice S1x256 ![2, 0] (shapeCast S3x256 X shapeCasts_S1x3x1x256_S3x256) slices_S3x256_o2_0_S1x256) shapeCasts_S1x256_S256)
    (broadcast S256 (Scalar.ofBits .f32 0x42000000#32))

/-- The cells of a scaled line: floor, to 32-bit integers, clamped into [0, 31]. -/
def cellV (s : FVec F S256 .f32) : IVec S256 32 :=
  minsi (broadcast S256 31#32) (maxsi (broadcast S256 0#32) (fptosi 32 (floor s)))

/-- The fractions of a scaled line: the scaled value minus its cell. -/
def fracV (s : FVec F S256 .f32) : FVec F S256 .f32 :=
  subf s (sitofp .f32 (cellV s))

/-- The weight matrix of an axis: entry (k, w) is `[k = cell w] · (1 − frac w) + [k = cell w + 1] · frac w`. -/
def hot (idx : IVec S256 32) (fr : FVec F S256 .f32) : FVec F S33x256 .f32 :=
  addf
    (mulf
      (sitofp .f32 (extui 32 (cmpi .eq (iota .tc S33x256 32 [0] iota_S33x256_d0_w32)
        (broadcastTo S33x256 (shapeCast S1x256 idx shapeCasts_S256_S1x256) broadcasts_S1x256_S33x256)) natLt_1_32))
      (broadcastTo S33x256 (shapeCast S1x256 (subf (broadcast S256 (Scalar.ofBits .f32 0x3F800000#32)) fr) shapeCasts_S256_S1x256)
        broadcasts_S1x256_S33x256))
    (mulf
      (sitofp .f32 (extui 32 (cmpi .eq (iota .tc S33x256 32 [0] iota_S33x256_d0_w32)
        (broadcastTo S33x256 (addi (shapeCast S1x256 idx shapeCasts_S256_S1x256) (broadcast S1x256 1#32)) broadcasts_S1x256_S33x256)) natLt_1_32))
      (broadcastTo S33x256 (shapeCast S1x256 fr shapeCasts_S256_S1x256) broadcasts_S1x256_S33x256))

/-- The table contracted along red with the red weights: a 3267 × 256 matrix product into zero. -/
def redStep (L : FVec F S3267x33 .bf16) (X : Vec F S1x3x1x256 .f32) : FVec F S3267x256 .f32 :=
  matmul dot_S3267x33_S33x256_S3267x256_1_0_0_1_n_n none L
    (truncf .bf16 (hot (cellV (chan0 X)) (fracV (chan0 X))) bitsLt_bf16_f32) (constant S3267x256 .f32 0x00000000#32)

/-- Then times the green weights, summed over green. -/
def greenStep (L : FVec F S3267x33 .bf16) (X : Vec F S1x3x1x256 .f32) : FVec F S3x33x256 .f32 :=
  multiReduction .add [2] S3x33x256
    (mulf (shapeCast S3x33x33x256 (redStep L X) shapeCasts_S3267x256_S3x33x33x256)
      (broadcastTo S3x33x33x256 (shapeCast S1x1x33x256 (hot (cellV (chan1 X)) (fracV (chan1 X))) shapeCasts_S33x256_S1x1x33x256)
        broadcasts_S1x1x33x256_S3x33x33x256))
    0x00000000#32 reduces_S3x33x33x256_S3x33x256 (.inl rfl) rfl

/-- Then times the blue weights, summed over blue. -/
def blueStep (L : FVec F S3267x33 .bf16) (X : Vec F S1x3x1x256 .f32) : FVec F S3x256 .f32 :=
  multiReduction .add [1] S3x256
    (mulf (greenStep L X)
      (broadcastTo S3x33x256 (shapeCast S1x33x256 (hot (cellV (chan2 X)) (fracV (chan2 X))) shapeCasts_S33x256_S1x33x256)
        broadcasts_S1x33x256_S3x33x256))
    0x00000000#32 reduces_S3x33x256_S3x256 (.inl rfl) rfl

/-- What the body stores for one row: the three output lines, laid out as a 1 × 3 × 1 × 256 piece. -/
def rowOut (L : FVec F S3267x33 .bf16) (X : Vec F S1x3x1x256 .f32) : FVec F S1x3x1x256 .f32 :=
  shapeCast S1x3x1x256 (blueStep L X) shapeCasts_S3x256_S1x3x1x256

end Cert.KernelIdeal.Row

end
-- ==== Proof.KernelHot.lean ====
/-
  The per-axis quantities of one image row, read at a column, and the weight matrix summed against.

  A colour line of the row block, scaled by 32, is the scaled colour value of the column; its cell and fraction are the
  specification's. Column w of an axis's weight matrix holds `1 − fraction` in the row of the column's cell, `fraction`
  in the next row and zero in the other 31 rows (a cell is at most 31, so both rows exist and differ); since zero times
  any extended real is zero, a sum of 33 terms against that column keeps exactly those two.
-/
import proofs.«120387_j39822936768697_1_alg».proof.Proof.Spec
import proofs.«120387_j39822936768697_1_alg».proof.Proof.KernelRowDef
import Idealize.ShloMosaic.Lib.ValueIdx
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.Trilinear

/-- The scaled red line at column `w` is the scaled red value of the row block there. -/
theorem chan0_apply (X : Vec Ideal S1x3x1x256 .f32) (w : Fin 256) :
    chan0 X (ix1 w) = scaled (X (ix4 (0 : Fin 1) (0 : Fin 3) (0 : Fin 1) w)) := by
  unfold chan0 scaled
  rw [mulf_apply]
  congr 1
  -- the line [256] at w is the one-row matrix [1, 256] at (0, w)
  refine (shapeCast_apply _ _ _ (ix2 (0 : Fin 1) w) ?_).trans ?_
  · rw [Shape.rowMajor_val_two, Shape.rowMajor_val_one]
    show 0 * 256 + w.val = w.val
    omega
  -- which is row 0 of the [3, 256] matrix
  refine (extractStridedSlice_apply _ _ _ _ (ix2 (0 : Fin 3) w) (fun a => match a with
    | ⟨0, _⟩ => by show 0 = 0 + 0; omega
    | ⟨1, _⟩ => by show w.val = 0 + w.val; omega)).trans ?_
  -- whose entry (0, w) is the block's entry (0, 0, 0, w)
  exact shapeCast_apply _ _ _ _ (by
    rw [Shape.rowMajor_val_four, Shape.rowMajor_val_two]
    show ((0 * 3 + 0) * 1 + 0) * 256 + w.val = 0 * 256 + w.val
    omega)

/-- The scaled green line likewise, -/
theorem chan1_apply (X : Vec Ideal S1x3x1x256 .f32) (w : Fin 256) :
    chan1 X (ix1 w) = scaled (X (ix4 (0 : Fin 1) (1 : Fin 3) (0 : Fin 1) w)) := by
  unfold chan1 scaled
  rw [mulf_apply]
  congr 1
  -- the line [256] at w is the one-row matrix [1, 256] at (0, w)
  refine (shapeCast_apply _ _ _ (ix2 (0 : Fin 1) w) ?_).trans ?_
  · rw [Shape.rowMajor_val_two, Shape.rowMajor_val_one]
    show 0 * 256 + w.val = w.val
    omega
  -- which is row 1 of the [3, 256] matrix
  refine (extractStridedSlice_apply _ _ _ _ (ix2 (1 : Fin 3) w) (fun a => match a with
    | ⟨0, _⟩ => by show 1 = 1 + 0; omega
    | ⟨1, _⟩ => by show w.val = 0 + w.val; omega)).trans ?_
  -- whose entry (1, w) is the block's entry (0, 1, 0, w)
  exact shapeCast_apply _ _ _ _ (by
    rw [Shape.rowMajor_val_four, Shape.rowMajor_val_two]
    show ((0 * 3 + 1) * 1 + 0) * 256 + w.val = 1 * 256 + w.val
    omega)

/-- and the scaled blue line. -/
theorem chan2_apply (X : Vec Ideal S1x3x1x256 .f32) (w : Fin 256) :
    chan2 X (ix1 w) = scaled (X (ix4 (0 : Fin 1) (2 : Fin 3) (0 : Fin 1) w)) := by
  unfold chan2 scaled
  rw [mulf_apply]
  congr 1
  -- the line [256] at w is the one-row matrix [1, 256] at (0, w)
  refine (shapeCast_apply _ _ _ (ix2 (0 : Fin 1) w) ?_).trans ?_
  · rw [Shape.rowMajor_val_two, Shape.rowMajor_val_one]
    show 0 * 256 + w.val = w.val
    omega
  -- which is row 2 of the [3, 256] matrix
  refine (extractStridedSlice_apply _ _ _ _ (ix2 (2 : Fin 3) w) (fun a => match a with
    | ⟨0, _⟩ => by show 2 = 2 + 0; omega
    | ⟨1, _⟩ => by show w.val = 0 + w.val; omega)).trans ?_
  -- whose entry (2, w) is the block's entry (0, 2, 0, w)
  exact shapeCast_apply _ _ _ _ (by
    rw [Shape.rowMajor_val_four, Shape.rowMajor_val_two]
    show ((0 * 3 + 2) * 1 + 0) * 256 + w.val = 2 * 256 + w.val
    omega)

/-- The cells of a line, at a column whose scaled value is known, are that value's cell. -/
theorem cellV_apply (s : FVec Ideal S256 .f32) (v : EReal) (w : Fin 256) (hs : s (ix1 w) = scaled v) :
    cellV s (ix1 w) = cell v := by
  show IntOp.minsi 31#32 (IntOp.maxsi 0#32 (Ideal.fptosi 32 (Ideal.liftRound Int.floor (s (ix1 w))))) = cell v
  rw [hs]
  rfl

/-- The fractions of a line, at such a column, are that value's fraction. -/
theorem fracV_apply (s : FVec Ideal S256 .f32) (v : EReal) (w : Fin 256) (hs : s (ix1 w) = scaled v) :
    fracV s (ix1 w) = frac v := by
  show s (ix1 w) - (((cellV s (ix1 w)).toInt : ℝ) : EReal) = frac v
  rw [cellV_apply s v w hs, hs]
  rfl

/-- A line laid out as a one-row matrix and repeated down 33 rows reads, at row `k` and column `w`, the line at `w`. -/
private theorem row_apply {α : Type} (x : S256.Idx → α) (k : Fin 33) (w : Fin 256) :
    broadcastTo S33x256 (shapeCast S1x256 x shapeCasts_S256_S1x256) broadcasts_S1x256_S33x256 (ix2 k w) = x (ix1 w) := by
  refine (broadcastTo_apply _ _ _ (ix2 (0 : Fin 1) w) (fun a => match a with
    | ⟨0, _⟩ => rfl
    | ⟨1, _⟩ => rfl)).trans ?_
  exact shapeCast_apply _ _ _ _ (by
    rw [Shape.rowMajor_val_one, Shape.rowMajor_val_two]
    show w.val = 0 * 256 + w.val
    omega)

/-- The same for the line of successors: the one-row matrix plus the all-ones row, repeated down 33 rows. -/
private theorem row_succ_apply (idx : IVec S256 32) (k : Fin 33) (w : Fin 256) :
    broadcastTo S33x256 (addi (shapeCast S1x256 idx shapeCasts_S256_S1x256) (broadcast S1x256 1#32))
      broadcasts_S1x256_S33x256 (ix2 k w) = idx (ix1 w) + 1#32 := by
  refine (broadcastTo_apply _ _ _ (ix2 (0 : Fin 1) w) (fun a => match a with
    | ⟨0, _⟩ => rfl
    | ⟨1, _⟩ => rfl)).trans ?_
  show shapeCast S1x256 idx shapeCasts_S256_S1x256 (ix2 (0 : Fin 1) w) + 1#32 = idx (ix1 w) + 1#32
  congr 1
  exact shapeCast_apply _ _ _ _ (by
    rw [Shape.rowMajor_val_one, Shape.rowMajor_val_two]
    show w.val = 0 * 256 + w.val
    omega)

/-- The indicator of an equality of 32-bit words, widened and read as a real: one or zero. -/
private theorem ind_eq (a b : BitVec 32) :
    ((((IntOp.cmpi .eq a b).setWidth 32).toInt : ℝ) : EReal) = if a = b then 1 else 0 := by
  by_cases h : a = b
  · subst h
    rw [if_pos rfl]
    have : IntOp.cmpi .eq a a = 1#1 := by
      show BitVec.ofBool (a == a) = 1#1
      rw [beq_self_eq_true]
      rfl
    rw [this]
    norm_num
  · rw [if_neg h]
    have : IntOp.cmpi .eq a b = 0#1 := by
      show BitVec.ofBool (a == b) = 0#1
      rw [beq_eq_false_iff_ne.mpr h]
      rfl
    rw [this]
    norm_num

/-- An entry of the weight matrix, read at row `k` and column `w`. -/
private theorem hot_apply (idx : IVec S256 32) (fr : FVec Ideal S256 .f32) (k : Fin 33) (w : Fin 256) :
    hot idx fr (ix2 k w)
      = (if BitVec.ofNat 32 k.val = idx (ix1 w) then 1 else 0) * (Ideal.ofBits .f32 0x3F800000#32 - fr (ix1 w))
        + (if BitVec.ofNat 32 k.val = idx (ix1 w) + 1#32 then 1 else 0) * fr (ix1 w) := by
  unfold hot
  rw [addf_apply, mulf_apply, mulf_apply, sitofp_apply, sitofp_apply, extui_apply, extui_apply]
  rw [row_apply, row_apply]
  show ((((IntOp.cmpi .eq (iota .tc S33x256 32 [0] iota_S33x256_d0_w32 (ix2 k w))
        (broadcastTo S33x256 (shapeCast S1x256 idx shapeCasts_S256_S1x256) broadcasts_S1x256_S33x256 (ix2 k w))).setWidth 32).toInt : ℝ) : EReal)
        * (Ideal.ofBits .f32 0x3F800000#32 - fr (ix1 w))
      + ((((IntOp.cmpi .eq (iota .tc S33x256 32 [0] iota_S33x256_d0_w32 (ix2 k w))
        (broadcastTo S33x256 (addi (shapeCast S1x256 idx shapeCasts_S256_S1x256) (broadcast S1x256 1#32)) broadcasts_S1x256_S33x256 (ix2 k w))).setWidth 32).toInt : ℝ) : EReal)
        * fr (ix1 w) = _
  rw [row_apply, row_succ_apply, iota_single_apply, ind_eq, ind_eq]

/-- A sum against a column of the weight matrix keeps two terms: the cell's, weighted `1 − frac`, and the next one's,
    weighted `frac` (every other weight is zero, and zero times anything is zero on the extended reals). -/
theorem hot_sum (s : FVec Ideal S256 .f32) (v : EReal) (w : Fin 256) (hs : s (ix1 w) = scaled v) (f : Fin 33 → EReal) :
    ∑ k : Fin 33, f k * hot (cellV s) (fracV s) (ix2 k w)
      = f ⟨(cell v).toNat, by have := cell_toNat_le v; omega⟩ * wt v false
        + f ⟨(cell v).toNat + 1, by have := cell_toNat_le v; omega⟩ * wt v true := by
  have hc := cell_toNat_le v
  -- column w of the matrix: the lower weight at row (cell v), the upper weight at the row after it, zero elsewhere
  have hcol : ∀ k : Fin 33, hot (cellV s) (fracV s) (ix2 k w)
      = (if k.val = (cell v).toNat then 1 else 0) * wt v false
        + (if k.val = (cell v).toNat + 1 then 1 else 0) * wt v true := by
    intro k
    have hk := k.isLt
    rw [hot_apply, cellV_apply s v w hs, fracV_apply s v w hs]
    have h1 : BitVec.ofNat 32 k.val = cell v ↔ k.val = (cell v).toNat := by
      rw [← BitVec.toNat_inj, BitVec.toNat_ofNat, Nat.mod_eq_of_lt (by omega)]
    have h2 : BitVec.ofNat 32 k.val = cell v + 1#32 ↔ k.val = (cell v).toNat + 1 := by
      rw [← BitVec.toNat_inj, BitVec.toNat_ofNat, BitVec.toNat_add, Nat.mod_eq_of_lt (by omega)]
      show k.val = ((cell v).toNat + 1) % 2 ^ 32 ↔ _
      rw [Nat.mod_eq_of_lt (by omega)]
    simp only [h1, h2]
    rfl
  have a0 : hot (cellV s) (fracV s) (ix2 (⟨(cell v).toNat, by omega⟩ : Fin 33) w) = wt v false := by
    rw [hcol]
    dsimp only
    rw [if_pos rfl, if_neg (show ¬ (cell v).toNat = (cell v).toNat + 1 by omega), one_mul, zero_mul, add_zero]
  have a1 : hot (cellV s) (fracV s) (ix2 (⟨(cell v).toNat + 1, by omega⟩ : Fin 33) w) = wt v true := by
    rw [hcol]
    dsimp only
    rw [if_neg (show ¬ (cell v).toNat + 1 = (cell v).toNat by omega), if_pos rfl, zero_mul, one_mul, zero_add]
  refine (Fintype.sum_eq_add (⟨(cell v).toNat, by omega⟩ : Fin 33) ⟨(cell v).toNat + 1, by omega⟩ ?_ ?_).trans ?_
  · intro h
    have := congrArg Fin.val h
    dsimp only at this
    omega
  · rintro k ⟨hk0, hk1⟩
    have e0 : ¬ k.val = (cell v).toNat := fun e => hk0 (Fin.ext e)
    have e1 : ¬ k.val = (cell v).toNat + 1 := fun e => hk1 (Fin.ext e)
    rw [hcol k, if_neg e0, if_neg e1, zero_mul, zero_mul, add_zero, mul_zero]
  · rw [a0, a1]

end Cert.KernelIdeal.Row

end
-- ==== Proof.KernelSteps.lean ====
/-
  The kernel's three steps for one image row, read at an index.

  The stored piece is a relabelling of the blue step's 3 × 256 result. The blue step sums, over the 33 blue positions,
  the green step's entries times the blue weights; the green step sums, over the 33 green positions, the red step's
  entries times the green weights, where the red step's 3267 rows are the (channel, blue, green) triples in row-major
  order; and the red step is a matrix product, whose entry is the sum over the 33 red positions of the table's entries
  times the red weights. The weight matrices are never opened here: each statement holds for any 33 × 256 matrix.
-/
import proofs.«120387_j39822936768697_1_alg».proof.Proof.KernelRowDef
import Idealize.ShloMosaic.Lib.ValueIdx
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen

/-! ### The weight matrices laid along the table's other axes -/

/-- A 33 × 256 matrix given a leading unit axis and repeated over the three channels reads, at (c, b, w), its entry (b, w). -/
theorem overChannels_apply (W : FVec Ideal S33x256 .f32) (c : Fin 3) (b : Fin 33) (w : Fin 256) :
    broadcastTo S3x33x256 (shapeCast S1x33x256 W shapeCasts_S33x256_S1x33x256) broadcasts_S1x33x256_S3x33x256 (ix3 c b w)
      = W (ix2 b w) := by
  refine (broadcastTo_apply _ broadcasts_S1x33x256_S3x33x256 (ix3 c b w) (ix3 (0 : Fin 1) b w) ?_).trans ?_
  · intro a
    match a with
    | ⟨0, _⟩ => rfl
    | ⟨1, _⟩ => rfl
    | ⟨2, _⟩ => rfl
  · refine shapeCast_apply W shapeCasts_S33x256_S1x33x256 (ix3 (0 : Fin 1) b w) (ix2 b w) ?_
    rw [Shape.rowMajor_val_two, Shape.rowMajor_val_three]
    show b.val * 256 + w.val = ((0 : Fin 1).val * 33 + b.val) * 256 + w.val
    simp

/-- A 33 × 256 matrix given two leading unit axes and repeated over channels and blue reads, at (c, b, g, w), its entry (g, w). -/
theorem overChannelsBlue_apply (W : FVec Ideal S33x256 .f32) (c : Fin 3) (b g : Fin 33) (w : Fin 256) :
    broadcastTo S3x33x33x256 (shapeCast S1x1x33x256 W shapeCasts_S33x256_S1x1x33x256) broadcasts_S1x1x33x256_S3x33x33x256 (ix4 c b g w)
      = W (ix2 g w) := by
  refine (broadcastTo_apply _ broadcasts_S1x1x33x256_S3x33x33x256 (ix4 c b g w) (ix4 (0 : Fin 1) (0 : Fin 1) g w) ?_).trans ?_
  · intro a
    match a with
    | ⟨0, _⟩ => rfl
    | ⟨1, _⟩ => rfl
    | ⟨2, _⟩ => rfl
    | ⟨3, _⟩ => rfl
  · refine shapeCast_apply W shapeCasts_S33x256_S1x1x33x256 (ix4 (0 : Fin 1) (0 : Fin 1) g w) (ix2 g w) ?_
    rw [Shape.rowMajor_val_two, Shape.rowMajor_val_four]
    show g.val * 256 + w.val = (((0 : Fin 1).val * 1 + (0 : Fin 1).val) * 33 + g.val) * 256 + w.val
    simp

/-! ### The two sums and the table's rows as (channel, blue, green) triples -/

/-- The sum over blue of a 3 × 33 × 256 array, at (c, w), is the sum of its entries (c, b, w). -/
theorem sumBlue_apply (A : FVec Ideal S3x33x256 .f32) (c : Fin 3) (w : Fin 256) :
    multiReduction (F := Ideal) .add [1] S3x256 A 0x00000000#32 reduces_S3x33x256_S3x256 (.inl rfl) rfl (ix2 c w)
      = ∑ b : Fin 33, A (ix3 c b w) := by
  refine (Ideal.multiReduction_add_single A _ reduces_S3x33x256_S3x256 _ _ (ix2 c w)).trans ?_
  refine Finset.sum_congr rfl fun b _ => congrArg A ?_
  funext a
  apply Fin.ext
  match a with
  | ⟨0, _⟩ => rfl
  | ⟨1, _⟩ => rfl
  | ⟨2, _⟩ => rfl

/-- The sum over green of a 3 × 33 × 33 × 256 array, at (c, b, w), is the sum of its entries (c, b, g, w). -/
theorem sumGreen_apply (A : FVec Ideal S3x33x33x256 .f32) (c : Fin 3) (b : Fin 33) (w : Fin 256) :
    multiReduction (F := Ideal) .add [2] S3x33x256 A 0x00000000#32 reduces_S3x33x33x256_S3x33x256 (.inl rfl) rfl (ix3 c b w)
      = ∑ g : Fin 33, A (ix4 c b g w) := by
  refine (Ideal.multiReduction_add_single A _ reduces_S3x33x33x256_S3x33x256 _ _ (ix3 c b w)).trans ?_
  refine Finset.sum_congr rfl fun g _ => congrArg A ?_
  funext a
  apply Fin.ext
  match a with
  | ⟨0, _⟩ => rfl
  | ⟨1, _⟩ => rfl
  | ⟨2, _⟩ => rfl
  | ⟨3, _⟩ => rfl

/-- A 3267 × 256 matrix read as 3 × 33 × 33 × 256: entry (c, b, g, w) is the matrix's row `rowIx c b g`, column `w`. -/
theorem rowsAsTriples_apply (M : FVec Ideal S3267x256 .f32) (c : Fin 3) (b g : Fin 33) (w : Fin 256) :
    shapeCast S3x33x33x256 M shapeCasts_S3267x256_S3x33x33x256 (ix4 c b g w) = M (ix2 (rowIx c b g) w) := by
  refine shapeCast_apply M shapeCasts_S3267x256_S3x33x33x256 (ix4 c b g w) (ix2 (rowIx c b g) w) ?_
  rw [Shape.rowMajor_val_two, Shape.rowMajor_val_four]
  show ((c.val * 33 + b.val) * 33 + g.val) * 256 + w.val = ((c.val * 33 + b.val) * 33 + g.val) * 256 + w.val
  rfl

/-- A 3 × 256 matrix given unit axes after the batch and the channel reads, at (0, c, 0, w), its entry (c, w). -/
theorem asPiece_apply (M : FVec Ideal S3x256 .f32) (c : Fin 3) (w : Fin 256) :
    shapeCast S1x3x1x256 M shapeCasts_S3x256_S1x3x1x256 (ix4 (0 : Fin 1) c (0 : Fin 1) w) = M (ix2 c w) := by
  refine shapeCast_apply M shapeCasts_S3x256_S1x3x1x256 (ix4 (0 : Fin 1) c (0 : Fin 1) w) (ix2 c w) ?_
  rw [Shape.rowMajor_val_two, Shape.rowMajor_val_four]
  show c.val * 256 + w.val = (((0 : Fin 1).val * 3 + c.val) * 1 + (0 : Fin 1).val) * 256 + w.val
  simp

/-! ### The matrix product at an index -/

/-- The product's left operand is read at the output's row … -/
theorem lhsRow (j : S3267x256.Idx) (k : dot_S3267x33_S33x256_S3267x256_1_0_0_1_n_n.contr.Idx) :
    (dot_S3267x33_S33x256_S3267x256_1_0_0_1_n_n.lhsIdx j k 0 : ℕ) = j 0 := by
  simp [DotDims.lhsIdx, dot_S3267x33_S33x256_S3267x256_1_0_0_1_n_n]; rfl
/-- … and the contracted position; -/
theorem lhsCol (j : S3267x256.Idx) (k : dot_S3267x33_S33x256_S3267x256_1_0_0_1_n_n.contr.Idx) :
    (dot_S3267x33_S33x256_S3267x256_1_0_0_1_n_n.lhsIdx j k 1 : ℕ) = k ⟨0, by decide⟩ := by
  simp [DotDims.lhsIdx, dot_S3267x33_S33x256_S3267x256_1_0_0_1_n_n]; rfl
/-- the right operand at the contracted position … -/
theorem rhsRow (j : S3267x256.Idx) (k : dot_S3267x33_S33x256_S3267x256_1_0_0_1_n_n.contr.Idx) :
    (dot_S3267x33_S33x256_S3267x256_1_0_0_1_n_n.rhsIdx j k 0 : ℕ) = k ⟨0, by decide⟩ := by
  simp [DotDims.rhsIdx, dot_S3267x33_S33x256_S3267x256_1_0_0_1_n_n]; rfl
/-- … and the output's column. -/
theorem rhsCol (j : S3267x256.Idx) (k : dot_S3267x33_S33x256_S3267x256_1_0_0_1_n_n.contr.Idx) :
    (dot_S3267x33_S33x256_S3267x256_1_0_0_1_n_n.rhsIdx j k 1 : ℕ) = j 1 := by
  simp [DotDims.rhsIdx, dot_S3267x33_S33x256_S3267x256_1_0_0_1_n_n]; rfl

/-- The 3267 × 33 by 33 × 256 product into zero, at (row, w), is the sum over the 33 contracted positions of the
    operands' products. -/
theorem product_apply (A : FVec Ideal S3267x33 .bf16) (B : FVec Ideal S33x256 .bf16) (row : Fin 3267) (w : Fin 256) :
    matmul dot_S3267x33_S33x256_S3267x256_1_0_0_1_n_n none A B (constant (F := Ideal) S3267x256 .f32 0x00000000#32) (ix2 row w)
      = ∑ r : Fin 33, A (ix2 row r) * B (ix2 r w) := by
  show FloatOps.matmul dot_S3267x33_S33x256_S3267x256_1_0_0_1_n_n none A B (constant (F := Ideal) S3267x256 .f32 0x00000000#32) (ix2 row w) = _
  rw [Ideal.matmul_constant_zero_apply,
    ← Equiv.sum_comp (contrEquiv1 dot_S3267x33_S33x256_S3267x256_1_0_0_1_n_n 33 rfl rfl).symm]
  refine Finset.sum_congr rfl fun r _ => ?_
  have hk := contrEquiv1_symm_val dot_S3267x33_S33x256_S3267x256_1_0_0_1_n_n 33 rfl rfl r
  have hl : dot_S3267x33_S33x256_S3267x256_1_0_0_1_n_n.lhsIdx (ix2 row w)
      ((contrEquiv1 dot_S3267x33_S33x256_S3267x256_1_0_0_1_n_n 33 rfl rfl).symm r) = ix2 row r := by
    funext ax
    apply Fin.ext
    match ax with
    | ⟨0, _⟩ => exact lhsRow _ _
    | ⟨1, _⟩ => exact (lhsCol _ _).trans hk
  have hr : dot_S3267x33_S33x256_S3267x256_1_0_0_1_n_n.rhsIdx (ix2 row w)
      ((contrEquiv1 dot_S3267x33_S33x256_S3267x256_1_0_0_1_n_n 33 rfl rfl).symm r) = ix2 r w := by
    funext ax
    apply Fin.ext
    match ax with
    | ⟨0, _⟩ => exact (rhsRow _ _).trans hk
    | ⟨1, _⟩ => exact rhsCol _ _
  rw [hl, hr]

/-- The same with the right operand narrowed to bf16 first: at the extended reals a change of format is the identity. -/
theorem productNarrowed_apply (A : FVec Ideal S3267x33 .bf16) (W : FVec Ideal S33x256 .f32) (row : Fin 3267) (w : Fin 256) :
    matmul dot_S3267x33_S33x256_S3267x256_1_0_0_1_n_n none A (truncf .bf16 W bitsLt_bf16_f32)
        (constant (F := Ideal) S3267x256 .f32 0x00000000#32) (ix2 row w)
      = ∑ r : Fin 33, A (ix2 row r) * W (ix2 r w) :=
  product_apply A (truncf .bf16 W bitsLt_bf16_f32) row w

/-! ### The three steps at an index -/

/-- A 3267 × 256 matrix, its rows read as (channel, blue, green) triples, times a weight matrix laid along green, summed
    over green. -/
theorem greenSum_apply (M : FVec Ideal S3267x256 .f32) (W : FVec Ideal S33x256 .f32) (c : Fin 3) (b : Fin 33) (w : Fin 256) :
    multiReduction (F := Ideal) .add [2] S3x33x256
        (mulf (shapeCast S3x33x33x256 M shapeCasts_S3267x256_S3x33x33x256)
          (broadcastTo S3x33x33x256 (shapeCast S1x1x33x256 W shapeCasts_S33x256_S1x1x33x256) broadcasts_S1x1x33x256_S3x33x33x256))
        0x00000000#32 reduces_S3x33x33x256_S3x33x256 (.inl rfl) rfl (ix3 c b w)
      = ∑ g : Fin 33, M (ix2 (rowIx c b g) w) * W (ix2 g w) := by
  refine (sumGreen_apply _ c b w).trans ?_
  refine Finset.sum_congr rfl fun g _ => ?_
  rw [mulf_apply, rowsAsTriples_apply, overChannelsBlue_apply]

/-- A 3 × 33 × 256 array times a weight matrix laid along blue, summed over blue. -/
theorem blueSum_apply (A : FVec Ideal S3x33x256 .f32) (W : FVec Ideal S33x256 .f32) (c : Fin 3) (w : Fin 256) :
    multiReduction (F := Ideal) .add [1] S3x256
        (mulf A (broadcastTo S3x33x256 (shapeCast S1x33x256 W shapeCasts_S33x256_S1x33x256) broadcasts_S1x33x256_S3x33x256))
        0x00000000#32 reduces_S3x33x256_S3x256 (.inl rfl) rfl (ix2 c w)
      = ∑ b : Fin 33, A (ix3 c b w) * W (ix2 b w) := by
  refine (sumBlue_apply _ c w).trans ?_
  refine Finset.sum_congr rfl fun b _ => ?_
  rw [mulf_apply, overChannels_apply]

/-- The red step at (row, w): the table's row against column `w` of the red weights. -/
theorem redStep_apply (L : FVec Ideal S3267x33 .bf16) (X : Vec Ideal S1x3x1x256 .f32) (row : Fin 3267) (w : Fin 256) :
    redStep L X (ix2 row w) = ∑ r : Fin 33, L (ix2 row r) * hot (cellV (chan0 X)) (fracV (chan0 X)) (ix2 r w) :=
  productNarrowed_apply L (hot (cellV (chan0 X)) (fracV (chan0 X))) row w

/-- The green step at (c, b, w). -/
theorem greenStep_apply (L : FVec Ideal S3267x33 .bf16) (X : Vec Ideal S1x3x1x256 .f32) (c : Fin 3) (b : Fin 33) (w : Fin 256) :
    greenStep L X (ix3 c b w)
      = ∑ g : Fin 33, (∑ r : Fin 33, L (ix2 (rowIx c b g) r) * hot (cellV (chan0 X)) (fracV (chan0 X)) (ix2 r w))
          * hot (cellV (chan1 X)) (fracV (chan1 X)) (ix2 g w) := by
  refine (greenSum_apply (redStep L X) (hot (cellV (chan1 X)) (fracV (chan1 X))) c b w).trans ?_
  refine Finset.sum_congr rfl fun g _ => ?_
  rw [redStep_apply]

/-- The blue step at (c, w). -/
theorem blueStep_apply (L : FVec Ideal S3267x33 .bf16) (X : Vec Ideal S1x3x1x256 .f32) (c : Fin 3) (w : Fin 256) :
    blueStep L X (ix2 c w)
      = ∑ b : Fin 33, (∑ g : Fin 33, (∑ r : Fin 33,
          L (ix2 (rowIx c b g) r) * hot (cellV (chan0 X)) (fracV (chan0 X)) (ix2 r w))
            * hot (cellV (chan1 X)) (fracV (chan1 X)) (ix2 g w))
              * hot (cellV (chan2 X)) (fracV (chan2 X)) (ix2 b w) := by
  refine (blueSum_apply (greenStep L X) (hot (cellV (chan2 X)) (fracV (chan2 X))) c w).trans ?_
  refine Finset.sum_congr rfl fun b _ => ?_
  rw [greenStep_apply]

/-- The stored row at channel `c`, column `w`, as three nested sums over the lattice axes: red innermost (the matrix
    product's contraction), then green, then blue. -/
theorem rowOut_sum (L : FVec Ideal S3267x33 .bf16) (X : Vec Ideal S1x3x1x256 .f32) (c : Fin 3) (w : Fin 256) :
    rowOut L X (ix4 (0 : Fin 1) c (0 : Fin 1) w) =
      ∑ b : Fin 33, (∑ g : Fin 33, (∑ r : Fin 33,
          L (ix2 (rowIx c b g) r) * hot (cellV (chan0 X)) (fracV (chan0 X)) (ix2 r w))
            * hot (cellV (chan1 X)) (fracV (chan1 X)) (ix2 g w))
              * hot (cellV (chan2 X)) (fracV (chan2 X)) (ix2 b w) :=
  (asPiece_apply (blueStep L X) c w).trans (blueStep_apply L X c w)

end Cert.KernelIdeal.Row

end
-- ==== Proof.KernelRow.lean ====
/-
  One stored row of the kernel is the blend.

  The row's three nested sums (red innermost) each run against a column of a weight matrix, which keeps the cell's term
  and the next one; what is left is the nested contraction of the table, which for real inputs is the eight-corner blend.
-/
import proofs.«120387_j39822936768697_1_alg».proof.Proof.Algebra
import proofs.«120387_j39822936768697_1_alg».proof.Proof.KernelHot
import proofs.«120387_j39822936768697_1_alg».proof.Proof.KernelSteps

noncomputable section

namespace Cert.KernelIdeal.Row

open Idealize.ShloMosaic Idealize.ShloMosaic.ValueIdx Cert.KernelIdeal Cert.KernelIdeal.Gen Cert.Trilinear

/-- For a table block `L` whose row (c, b, g) holds the table's entries `lut (c, b, g, ·)`, a real table and a real row
    block, the stored row at channel `c` and column `w` is the blend of table channel `c` at the column's three colour
    values (blue is channel 2, green 1, red 0). -/
theorem rowOut_apply (lut : SLut.Idx → EReal) (L : FVec Ideal S3267x33 .bf16) (X : Vec Ideal S1x3x1x256 .f32)
    (hL : ∀ (c : Fin 3) (b g r : Fin 33), L (ix2 (rowIx c b g) r) = lut (ix4 c b g r))
    (hlut : ∀ i, ∃ q : ℝ, lut i = (q : EReal)) (hX : ∀ i, ∃ q : ℝ, X i = (q : EReal)) (c : Fin 3) (w : Fin 256) :
    rowOut L X (ix4 (0 : Fin 1) c (0 : Fin 1) w)
      = blend lut c (X (ix4 (0 : Fin 1) (2 : Fin 3) (0 : Fin 1) w)) (X (ix4 (0 : Fin 1) (1 : Fin 3) (0 : Fin 1) w))
          (X (ix4 (0 : Fin 1) (0 : Fin 3) (0 : Fin 1) w)) := by
  rw [rowOut_sum]
  simp only [hot_sum (chan0 X) _ w (chan0_apply X w), hot_sum (chan1 X) _ w (chan1_apply X w),
    hot_sum (chan2 X) _ w (chan2_apply X w), hL, tab_eq]
  exact nested_eq_blend lut hlut c _ _ _ (hX _) (hX _) (hX _)

end Cert.KernelIdeal.Row

end
-- ==== Proof.KernelBlocks.lean ====
/-
  The kernel's result array is the interpolated image.

  A grid point (n, hb, wb) of the 8 × 128 × 4 grid stages the whole table block (the table reshaped to 3267 × 33) and the
  1 × 3 × 8 × 256 block of the image at batch n, rows 8·hb …, columns 256·wb …, and writes back a block of the same place:
  eight row pieces, each the row function of the table block and of that row of the image block. A row piece is the blend
  at each of its pixels, so the block written back is the block of the interpolated image; the blocks tile the array.
-/
import proofs.«120387_j39822936768697_1_alg».proof.Proof.Gen.KernelIdeal.Value
import proofs.«120387_j39822936768697_1_alg».proof.Proof.KernelRow
import Idealize.ShloMosaic.Lib.Pipeline.Value
import Idealize.ShloMosaic.Lib.StableHlo.Run
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Row Cert.KernelIdeal.Value Cert.Trilinear
open Idealize.ShloMosaic.Pipeline (Dat)

variable (m : (ℓ : Loc nD τ sig) → Buf (Elt Ideal) ℓ) (ρ : Dev nD → PrngReg)

/-- The table argument as launched. -/
abbrev lutArr (c : Dev nD) : SLut.Idx → EReal := m ((c : Thread nD τ).loc main_arg0)
/-- The image argument as launched. -/
abbrev imgArr (c : Dev nD) : SImg.Idx → EReal := m ((c : Thread nD τ).loc main_arg1)

/-! ## The body's eight stores are eight rows -/

/-- What the body leaves in the output buffer: eight row pieces, row k of the buffer the row function of the whole
    table block and of row k of the image block. -/
theorem out0_2_rows {F : FTy → Type} [FloatOps F] (x0 : Vec F S3267x33 .bf16) (x1 : Vec F S1x3x8x256 .f32) :
    out0_2 x0 x1 = View.canon [
      ⟨r0_8, rowOut (k0_pay2 (View.ld x0 r0_0)) (View.ld x1 r0_8)⟩,
      ⟨r0_7, rowOut (k0_pay2 (View.ld x0 r0_0)) (View.ld x1 r0_7)⟩,
      ⟨r0_6, rowOut (k0_pay2 (View.ld x0 r0_0)) (View.ld x1 r0_6)⟩,
      ⟨r0_5, rowOut (k0_pay2 (View.ld x0 r0_0)) (View.ld x1 r0_5)⟩,
      ⟨r0_4, rowOut (k0_pay2 (View.ld x0 r0_0)) (View.ld x1 r0_4)⟩,
      ⟨r0_3, rowOut (k0_pay2 (View.ld x0 r0_0)) (View.ld x1 r0_3)⟩,
      ⟨r0_2, rowOut (k0_pay2 (View.ld x0 r0_0)) (View.ld x1 r0_2)⟩,
      ⟨r0_1, rowOut (k0_pay2 (View.ld x0 r0_0)) (View.ld x1 r0_1)⟩] := by
  rfl

/-- The table block's load starts at the origin. -/
theorem zero_offsets : (![0, 0] : Fin 2 → Nat) = fun _ => 0 := funext fun a => by fin_cases a <;> rfl

/-- The whole table block, loaded and re-cast to its own shape, is the block. -/
theorem table_load {F : FTy → Type} [FloatOps F] (x0 : Vec F S3267x33 .bf16) : k0_pay2 (View.ld x0 r0_0) = x0 := by
  unfold k0_pay2
  rw [View.ld_unit_zero (S := S3267x33) zero_offsets]
  exact shapeCast_self _ _

/-- The blend over a block: at block index y, the blend of table channel y₁ at the three colour values the image block
    holds at row y₂, column y₃. -/
def blockBlend (lut : SLut.Idx → EReal) (xb : Vec Ideal S1x3x8x256 .f32) : S1x3x8x256.Idx → EReal := fun y =>
  blend lut (y 1) (xb (ix4 (0 : Fin 1) (2 : Fin 3) (y 2) (y 3))) (xb (ix4 (0 : Fin 1) (1 : Fin 3) (y 2) (y 3)))
    (xb (ix4 (0 : Fin 1) (0 : Fin 3) (y 2) (y 3)))

/-- One row piece, at each of its indices, is the block blend at the index the piece's rectangle places it. -/
theorem piece_eq (lut : SLut.Idx → EReal) (L : FVec Ideal S3267x33 .bf16) (xb : Vec Ideal S1x3x8x256 .f32)
    (hL : ∀ (c : Fin 3) (b g r : Fin 33), L (ix2 (rowIx c b g) r) = lut (ix4 c b g r))
    (hlut : ∀ i, ∃ q : ℝ, lut i = (q : EReal)) (hX : ∀ i, ∃ q : ℝ, xb i = (q : EReal))
    (k : ℕ) (inb : ∀ a, (![0, 0, k, 0] : Fin 4 → Nat) a + S1x3x1x256.size a ≤ S1x3x8x256.size a)
    (x : S1x3x1x256.Idx) :
    rowOut L (View.ld xb (Rect.unit (s := S1x3x8x256) ![0, 0, k, 0] S1x3x1x256.size inb)) x
      = blockBlend lut xb ((Rect.unit (s := S1x3x8x256) ![0, 0, k, 0] S1x3x1x256.size inb).emb x) := by
  obtain ⟨a, ch, b, w, rfl⟩ : ∃ (a : Fin 1) (ch : Fin 3) (b : Fin 1) (w : Fin 256), x = ix4 a ch b w :=
    ⟨x 0, x 1, x 2, x 3, eq_ix4 x⟩
  obtain rfl : a = 0 := Subsingleton.elim _ _
  obtain rfl : b = 0 := Subsingleton.elim _ _
  refine (rowOut_apply lut L (View.ld xb (Rect.unit (s := S1x3x8x256) ![0, 0, k, 0] S1x3x1x256.size inb)) hL hlut
    (fun i => hX _) ch w).trans ?_
  unfold blockBlend
  have e1 : (Rect.unit (s := S1x3x8x256) ![0, 0, k, 0] S1x3x1x256.size inb).emb (ix4 0 ch 0 w) 1 = ch :=
    Fin.ext (by show 0 + 1 * ch.val = ch.val; omega)
  have eX : ∀ c' : Fin 3, (Rect.unit (s := S1x3x8x256) ![0, 0, k, 0] S1x3x1x256.size inb).idx (ix4 (0 : Fin 1) c' (0 : Fin 1) w)
      = ix4 (0 : Fin 1) c' ((Rect.unit (s := S1x3x8x256) ![0, 0, k, 0] S1x3x1x256.size inb).emb (ix4 0 ch 0 w) 2)
          ((Rect.unit (s := S1x3x8x256) ![0, 0, k, 0] S1x3x1x256.size inb).emb (ix4 0 ch 0 w) 3) := fun c' =>
    funext fun a => Fin.ext (by
      match a with
      | ⟨0, _⟩ => show 0 + 1 * 0 = 0; rfl
      | ⟨1, _⟩ => show 0 + 1 * c'.val = c'.val; omega
      | ⟨2, _⟩ => rfl
      | ⟨3, _⟩ => rfl)
  dsimp only [View.ld]
  rw [eX, eX, eX, e1]
  rfl

/-- So the output buffer after the body is the block blend of the image block, for a table block that holds the table
    row by row and real inputs. -/
theorem blockOut_eq (lut : SLut.Idx → EReal) (x0 : Vec Ideal S3267x33 .bf16) (xb : Vec Ideal S1x3x8x256 .f32)
    (hL : ∀ (c : Fin 3) (b g r : Fin 33), x0 (ix2 (rowIx c b g) r) = lut (ix4 c b g r))
    (hlut : ∀ i, ∃ q : ℝ, lut i = (q : EReal)) (hX : ∀ i, ∃ q : ℝ, xb i = (q : EReal)) :
    out0_2 x0 xb = blockBlend lut xb := by
  rw [out0_2_rows, table_load]
  funext y
  refine View.canon_apply_of_pieces (Val := Elt Ideal) (S := S1x3x8x256) (e := .f32) (blockBlend lut xb) _ ?_ y ?_
  · intro p hp x
    simp only [List.mem_cons, List.not_mem_nil, or_false] at hp
    rcases hp with rfl | rfl | rfl | rfl | rfl | rfl | rfl | rfl
    all_goals exact piece_eq lut x0 xb hL hlut hX _ _ x
  · exact cover0_2 _ _ _ _ _ _ _ _ y

/-! ## The arrays the region finds, and the blocks a point stages -/

/-- The table block's array when the region is entered: the table reshaped to 3267 × 33 (the narrowing of its format is
    the identity on the extended reals). -/
theorem tableArr_eq (c : Dev nD) :
    (V m c main_v1 : S3267x33.Idx → EReal)
      = truncf (F := Ideal) .bf16 (shapeCast S3267x33 (lutArr m c) shapeCasts_S3x33x33x33_S3267x33) bitsLt_bf16_f32 := by
  dsimp only [Gen.V, Gen.hostOps0]; after_results; rfl

/-- The index maps over the grid, decided: the table block is always block (0, 0); the image block and the output block
    of point t are block (t / 512, 0, t / 4 mod 128, t mod 4). -/
theorem idx_facts : ∀ t : Fin cfg0.N,
    win0_0.index t (0 : Fin 2) = 0 ∧ win0_0.index t (1 : Fin 2) = 0
    ∧ win0_1.index t (0 : Fin 4) = t.val / 512 ∧ win0_1.index t (1 : Fin 4) = 0
    ∧ win0_1.index t (2 : Fin 4) = t.val / 4 % 128 ∧ win0_1.index t (3 : Fin 4) = t.val % 4
    ∧ win0_2.index t (0 : Fin 4) = t.val / 512 ∧ win0_2.index t (1 : Fin 4) = 0
    ∧ win0_2.index t (2 : Fin 4) = t.val / 4 % 128 ∧ win0_2.index t (3 : Fin 4) = t.val % 4 :=
  (by decide +kernel : ∀ t : Fin grid0.N, _)

/-- The table block at any point holds the table row by row: row (c, b, g), column r is the table's entry (c, b, g, r),
    the two having one row-major position. -/
theorem tableBlk (c : Dev nD) (t : Fin cfg0.N) (c' : Fin 3) (b g r : Fin 33) :
    (iblk m c 0 t : S3267x33.Idx → EReal) (ix2 (rowIx c' b g) r) = lutArr m c (ix4 c' b g r) := by
  obtain ⟨e0, e1, -⟩ := idx_facts t
  show V m c main_v1 (((cfg0.win 0).blk t).view.emb (ix2 (rowIx c' b g) r)) = _
  have h : ((cfg0.win 0).blk t).view.emb (ix2 (rowIx c' b g) r) = ix2 (rowIx c' b g) r := by
    funext a; apply Fin.ext
    match a with
    | ⟨0, _⟩ => show win0_0.index t (0 : Fin 2) * 3267 + 1 * ((c'.val * 33 + b.val) * 33 + g.val) = (c'.val * 33 + b.val) * 33 + g.val; omega
    | ⟨1, _⟩ => show win0_0.index t (1 : Fin 2) * 33 + 1 * r.val = r.val; omega
  rw [h, tableArr_eq]
  show shapeCast S3267x33 (lutArr m c) shapeCasts_S3x33x33x33_S3267x33 (ix2 (rowIx c' b g) r) = _
  refine shapeCast_apply (lutArr m c) _ (ix2 (rowIx c' b g) r) (ix4 c' b g r) ?_
  rw [Shape.rowMajor_val_four, Shape.rowMajor_val_two]
  show ((c'.val * 33 + b.val) * 33 + g.val) * 33 + r.val = ((c'.val * 33 + b.val) * 33 + g.val) * 33 + r.val
  rfl

/-- The image block at a point, at block index y, is the image at the index the block's place gives y. -/
theorem imgBlk (c : Dev nD) (t : Fin cfg0.N) (y : S1x3x8x256.Idx) :
    (iblk m c 1 t : S1x3x8x256.Idx → EReal) y = imgArr m c (((cfg0.win 1).blk t).view.emb y) := by
  show V m c main_arg1 (((cfg0.win 1).blk t).view.emb y) = _
  rw [V_main_arg1]

/-! ## What a point writes back, the cover, and the final array -/

/-- WHAT POINT t WRITES BACK is block t of the interpolated image, when both inputs are real. -/
theorem flushed_eq (c : Dev nD) (hlut : ∀ i, ∃ q : ℝ, lutArr m c i = (q : EReal))
    (himg : ∀ i, ∃ q : ℝ, imgArr m c i = (q : EReal)) (t : Fin cfg0.N) :
    (dats m 0 c).flushed 2 t = ((cfg0.win 2).blk t).view.read (Elt Ideal) (G (lutArr m c) (imgArr m c)) := by
  rw [flushed2]
  rw [blockOut_eq (lutArr m c) (iblk m c 0 t) (iblk m c 1 t) (tableBlk m c t) hlut
    (fun y => by rw [imgBlk]; exact himg _)]
  obtain ⟨-, -, e2, e3, e4, e5, f0, f1, f2, f3⟩ := idx_facts t
  funext j
  show blockBlend (lutArr m c) (iblk m c 1 t) j = G (lutArr m c) (imgArr m c) (((cfg0.win 2).blk t).view.emb j)
  unfold blockBlend G
  have hj0 : (j 0).val < 1 := (j 0).isLt
  have hj1 : (j 1).val < 3 := (j 1).isLt
  have hc : ((cfg0.win 2).blk t).view.emb j 1 = j 1 :=
    Fin.ext (by show win0_2.index t (1 : Fin 4) * 3 + 1 * (j 1).val = (j 1).val; omega)
  have hx : ∀ ch : Fin 3, ((cfg0.win 1).blk t).view.emb (ix4 (0 : Fin 1) ch (j 2) (j 3))
      = ix4 (((cfg0.win 2).blk t).view.emb j 0) ch (((cfg0.win 2).blk t).view.emb j 2) (((cfg0.win 2).blk t).view.emb j 3) := fun ch => by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 3 + 1 * ch.val = ch.val; omega
    | ⟨2, _⟩ => show win0_1.index t (2 : Fin 4) * 8 + 1 * (j 2).val = win0_2.index t (2 : Fin 4) * 8 + 1 * (j 2).val; omega
    | ⟨3, _⟩ => show win0_1.index t (3 : Fin 4) * 256 + 1 * (j 3).val = win0_2.index t (3 : Fin 4) * 256 + 1 * (j 3).val; omega
  rw [imgBlk, imgBlk, imgBlk, hx, hx, hx, hc]
  rfl

/-- An index of the array is in point t's block iff each coordinate is in the block's range on its axis. -/
theorem mem_blk (t : Fin cfg0.N) (i : S8x3x1024x1024.Idx) :
    i ∈ ((cfg0.win 2).blk t).view.set ↔ ∀ a : Fin 4, win0_2.index t a * S1x3x8x256.size a ≤ (i a).val
      ∧ (i a).val < win0_2.index t a * S1x3x8x256.size a + S1x3x8x256.size a := by
  show i ∈ ((View.whole main_v2).slice (win0_2.rect t)).set ↔ _
  rw [View.set_slice_whole, Rect.mem_set_unit]
  exact Iff.rfl

/-- Every index of the array is in the block of the point (batch, row / 8, column / 256). -/
theorem cover (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  have hN : cfg0.N = 4096 := N_0
  refine ⟨⟨(i 0).val * 512 + (i 2).val / 8 * 4 + (i 3).val / 256, by rw [hN]; omega⟩, flush0_2 _, ?_⟩
  rw [mem_blk]
  obtain ⟨-, -, -, -, -, -, f0, f1, f2, f3⟩ := idx_facts ⟨(i 0).val * 512 + (i 2).val / 8 * 4 + (i 3).val / 256, by rw [hN]; omega⟩
  intro a
  match a with
  | ⟨0, _⟩ =>
    show win0_2.index _ (0 : Fin 4) * 1 ≤ (i 0).val ∧ (i 0).val < win0_2.index _ (0 : Fin 4) * 1 + 1
    rw [f0]; dsimp only; omega
  | ⟨1, _⟩ =>
    show win0_2.index _ (1 : Fin 4) * 3 ≤ (i 1).val ∧ (i 1).val < win0_2.index _ (1 : Fin 4) * 3 + 3
    rw [f1]; omega
  | ⟨2, _⟩ =>
    show win0_2.index _ (2 : Fin 4) * 8 ≤ (i 2).val ∧ (i 2).val < win0_2.index _ (2 : Fin 4) * 8 + 8
    rw [f2]; dsimp only; omega
  | ⟨3, _⟩ =>
    show win0_2.index _ (3 : Fin 4) * 256 ≤ (i 3).val ∧ (i 3).val < win0_2.index _ (3 : Fin 4) * 256 + 256
    rw [f3]; dsimp only; omega

/-- THE RESULT ARRAY after the run is the interpolated image of the two arguments, when both are real. -/
theorem final (c : Dev nD) (hlut : ∀ i, ∃ q : ℝ, lutArr m c i = (q : EReal))
    (himg : ∀ i, ∃ q : ℝ, imgArr m c i = (q : EReal)) :
    (dats m 0 c).arrAt 2 cfg0.N = G (lutArr m c) (imgArr m c) :=
  (dats m 0 c).arrAt_eq_of_cover 2 (G (lutArr m c) (imgArr m c)) (fun t _ => flushed_eq m c hlut himg t) cover

/-- The kernel's run, read: every weakly fair execution ends with the result array at the interpolated image of the
    arguments and the arguments unchanged, when on every core both arguments are real. -/
theorem run (hfin : ∀ c : Dev nD, (∀ i, ∃ q : ℝ, lutArr m c i = (q : EReal)) ∧ (∀ i, ∃ q : ℝ, imgArr m c i = (q : EReal))) :
    θ_run defs (onTc (τ := τ) (main (F := Ideal))) ⟨m, fun _ => 0, ρ⟩ fun r => ∀ c : Dev nD,
      r.2.mem ((c : Thread nD τ).loc main_v2) = G (lutArr m c) (imgArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (run_blocks m ρ)

end Cert.KernelIdeal.Blocks

end
-- ==== Proof.RefValue.lean ====
/-
  The reference program computes the interpolated image.

  At a pixel (n, h, w) the program scales the three colour values by 32, takes each one's cell (floor, conversion to a
  32-bit integer, clamp into [0, 31]) and fraction, forms the flat table position (blue cell · 33 + green cell) · 33 +
  red cell, and for each of the eight corners (db, dg, dr) looks the flattened table up at that position plus
  (db · 33 + dg) · 33 + dr, multiplies by the product of the corner's three weights, and adds the result onto zero.
  Because every cell is at most 31, each position is between 0 and 35936: the integer arithmetic does not wrap, the
  negative-index correction is never taken and the lookup's clamp changes nothing, so the looked-up entry is the table
  entry at (cell B + db, cell G + dg, cell R + dr). The sum of the eight terms, in the program's order, is the
  specification's blend.
-/
import proofs.«120387_j39822936768697_1_alg».proof.Proof.Spec
import proofs.«120387_j39822936768697_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Trilinear.Ref

open Idealize.ShloMosaic Idealize.ShloMosaic.ValueIdx Cert.Trilinear Cert.ReferenceIdeal Cert.ReferenceIdeal.Gen
open Cert.ReferenceIdeal.Read Idealize.ShloMosaic.StableHlo

/-! ## The table lookup read at an index -/

/-- The lookup's dimension numbers: operand [3, 35937], start indices [8, 1024, 1024, 1], result [3, 8, 1024, 1024]. -/
abbrev gd : GatherDims S3x35937 S8x1024x1024x1 S3x8x1024x1024 :=
  gather_S3x35937_S8x1024x1024x1_S3x8x1024x1024_0_1_n_n_1_3_31

/-- On the channel axis the operand index is the result's channel coordinate. -/
theorem gd_axis0 {w : Nat} (idx : IVec S8x1024x1024x1 w) (c : Fin 3) (n : Fin 8) (h v : Fin 1024) :
    gd.start (ix4 c n h v) idx 0 + gd.batchCoord (ix4 c n h v) 0 + gd.offCoord (ix4 c n h v) 0 = c.val := by
  rw [GatherDims.batchCoord_eq_zero _ _ _ List.not_mem_nil]
  unfold GatherDims.start
  rw [dif_neg (show ¬(0 : Fin S3x35937.rank) ∈ gd.startIndexMap by decide)]
  unfold GatherDims.offCoord
  rw [dif_pos (show (0 : Fin S3x35937.rank) ∈ gd.sKept by decide)]
  have hq : ∀ hp : List.idxOf (0 : Fin S3x35937.rank) gd.sKept < gd.offsetDims.length,
      gd.offsetDims[List.idxOf (0 : Fin S3x35937.rank) gd.sKept]'hp = (0 : Fin S3x8x1024x1024.rank) := by decide
  rw [Nat.zero_add]
  exact congrArg (fun q => ((ix4 c n h v) q).val) (hq _)

/-- On the flat table axis it is the start index, read signed and clamped into the table. -/
theorem gd_axis1 {w : Nat} (idx : IVec S8x1024x1024x1 w) (c : Fin 3) (n : Fin 8) (h v : Fin 1024) :
    gd.start (ix4 c n h v) idx 1 + gd.batchCoord (ix4 c n h v) 1 + gd.offCoord (ix4 c n h v) 1
      = min (idx (ix4 n h v 0)).toInt.toNat 35936 := by
  rw [GatherDims.batchCoord_eq_zero _ _ _ List.not_mem_nil,
    GatherDims.offCoord_eq_zero _ _ _ (show ¬(1 : Fin S3x35937.rank) ∈ gd.sKept by decide)]
  simp only [Nat.add_zero]
  unfold GatherDims.start
  rw [dif_pos (show (1 : Fin S3x35937.rank) ∈ gd.startIndexMap by decide)]
  have hsi : gd.siIdx (ix4 c n h v) ⟨List.idxOf (1 : Fin S3x35937.rank) gd.startIndexMap,
      List.idxOf_lt_length_iff.2 (by decide)⟩ = ix4 n h v 0 := by
    funext b; refine Fin.ext ?_
    match b with
    | ⟨0, _⟩ => rfl
    | ⟨1, _⟩ => rfl
    | ⟨2, _⟩ => rfl
    | ⟨3, _⟩ => rfl
  rw [hsi]
  rfl

/-- THE LOOKUP READ AT (c, n, h, w): the table's row c at the start index of pixel (n, h, w), read signed and clamped
    into [0, 35936]. -/
theorem gather_apply {α : Type} {w : Nat} (tabl : S3x35937.Idx → α) (idx : IVec S8x1024x1024x1 w)
    (c : Fin 3) (n : Fin 8) (h v : Fin 1024) :
    Host.gather gd tabl idx (ix4 c n h v)
      = tabl (ix2 c ⟨min (idx (ix4 n h v 0)).toInt.toNat 35936, by omega⟩) := by
  unfold Host.gather
  congr 1
  funext a
  refine Fin.ext ?_
  match a with
  | ⟨0, _⟩ => exact gd_axis0 idx c n h v
  | ⟨1, _⟩ => exact gd_axis1 idx c n h v

/-- The lookup at a start index whose signed value is known to lie inside the table. -/
theorem gather_at {α : Type} {w : Nat} (tabl : S3x35937.Idx → α) (idx : IVec S8x1024x1024x1 w)
    (c : Fin 3) (n : Fin 8) (h v : Fin 1024) (m : ℕ) (hm : (idx (ix4 n h v 0)).toInt.toNat = m) (hlt : m < 35937) :
    Host.gather gd tabl idx (ix4 c n h v) = tabl (ix2 c ⟨m, hlt⟩) := by
  rw [gather_apply]
  exact congrArg tabl (congrArg (ix2 c) (Fin.ext (by show min _ 35936 = m; omega)))

/-- The flattened table at flat position (b·33 + g)·33 + r of row c is the table entry (c, b, g, r). -/
theorem table_at (lut : (⟨S3x33x33x33, .f32⟩ : BufTy).Contents (Elt Ideal)) (c : Fin 3) (b g r : ℕ)
    (hb : b < 33) (hg : g < 33) (hr : r < 33) (hlt : (b * 33 + g) * 33 + r < 35937) :
    val_main_v27 (F := Ideal) lut (ix2 c ⟨(b * 33 + g) * 33 + r, hlt⟩) = tab lut c b g r := by
  rw [val_main_v27_apply]
  unfold tab
  rw [dif_pos ⟨hb, hg, hr⟩]
  refine congrArg lut (funext fun a => Fin.ext ?_)
  have hc := c.isLt
  match a with
  | ⟨0, _⟩ => show (c.val * 35937 + ((b * 33 + g) * 33 + r)) / 35937 = c.val; omega
  | ⟨1, _⟩ => show (c.val * 35937 + ((b * 33 + g) * 33 + r)) / 1089 % 33 = b; omega
  | ⟨2, _⟩ => show (c.val * 35937 + ((b * 33 + g) * 33 + r)) / 33 % 33 = g; omega
  | ⟨3, _⟩ => show (c.val * 35937 + ((b * 33 + g) * 33 + r)) % 33 = r; omega

/-! ## Integer index arithmetic -/

/-- The flat index of a triple of cells does not wrap around. -/
theorem base_toNat (b g r : BitVec 32) (hb : b.toNat ≤ 31) (hg : g.toNat ≤ 31) (hr : r.toNat ≤ 31) :
    (IntOp.addi (IntOp.muli (IntOp.addi (IntOp.muli b 33#32) g) 33#32) r).toNat
      = (b.toNat * 33 + g.toNat) * 33 + r.toNat := by
  unfold IntOp.addi IntOp.muli
  rw [BitVec.toNat_add, BitVec.toNat_mul, BitVec.toNat_add, BitVec.toNat_mul]
  show ((b.toNat * 33 % 2 ^ 32 + g.toNat) % 2 ^ 32 * 33 % 2 ^ 32 + r.toNat) % 2 ^ 32 = _
  omega

/-- A start index: the base plus two offsets, then 35937 added if the sum is negative. When base and offsets stay
    inside the table the sum is not negative, and its signed value is the plain sum. -/
theorem start_toNat (z k1 k2 : BitVec 32) (m : ℕ) (hz : z.toNat = m) (hle : m + k1.toNat + k2.toNat ≤ 35936) :
    (Scalar.select (IntOp.cmpi .slt (IntOp.addi (IntOp.addi z k1) k2) 0#32)
        (IntOp.addi (IntOp.addi (IntOp.addi z k1) k2) 35937#32) (IntOp.addi (IntOp.addi z k1) k2)).toInt.toNat
      = m + k1.toNat + k2.toNat := by
  have hsum : (IntOp.addi (IntOp.addi z k1) k2).toNat = m + k1.toNat + k2.toNat := by
    unfold IntOp.addi
    rw [BitVec.toNat_add, BitVec.toNat_add]
    omega
  generalize IntOp.addi (IntOp.addi z k1) k2 = s at hsum ⊢
  have hsI : s.toInt = ((m + k1.toNat + k2.toNat : ℕ) : ℤ) := by
    rw [BitVec.toInt_eq_toNat_cond, hsum]
    split <;> omega
  have h0 : (0#32 : BitVec 32).toInt = 0 := by decide
  have hcmp : IntOp.cmpi .slt s 0#32 = 0#1 := by
    show BitVec.ofBool (decide (s.toInt < (0#32 : BitVec 32).toInt)) = 0#1
    rw [decide_eq_false (by rw [hsI, h0]; omega)]
    rfl
  rw [hcmp, select_zero, hsI]
  exact Int.toNat_natCast _

/-! ## A pixel's scaled colour values, cells and fractions -/

section Pixel
variable (x : (⟨S8x3x1024x1024, .f32⟩ : BufTy).Contents (Elt Ideal)) (n : Fin 8) (h v : Fin 1024)

/-- Slicing out the red channel and dropping its unit axis reads the image at (n, 0, h, w). -/
theorem idx_red : idx_main_v0 (idx_main_v1 (ix3 n h v)) = ix4 n 0 h v := by
  funext a; refine Fin.ext ?_
  have hn := n.isLt; have hh := h.isLt; have hv := v.isLt
  match a with
  | ⟨0, _⟩ => show ((n.val * 1024 + h.val) * 1024 + v.val) / 1048576 = n.val; omega
  | ⟨1, _⟩ => rfl
  | ⟨2, _⟩ => show ((n.val * 1024 + h.val) * 1024 + v.val) / 1024 % 1024 = h.val; omega
  | ⟨3, _⟩ => show ((n.val * 1024 + h.val) * 1024 + v.val) % 1024 = v.val; omega

/-- The green channel likewise reads (n, 1, h, w), -/
theorem idx_green : idx_main_v4 (idx_main_v5 (ix3 n h v)) = ix4 n 1 h v := by
  funext a; refine Fin.ext ?_
  have hn := n.isLt; have hh := h.isLt; have hv := v.isLt
  match a with
  | ⟨0, _⟩ => show ((n.val * 1024 + h.val) * 1024 + v.val) / 1048576 = n.val; omega
  | ⟨1, _⟩ => rfl
  | ⟨2, _⟩ => show ((n.val * 1024 + h.val) * 1024 + v.val) / 1024 % 1024 = h.val; omega
  | ⟨3, _⟩ => show ((n.val * 1024 + h.val) * 1024 + v.val) % 1024 = v.val; omega

/-- and the blue channel (n, 2, h, w). -/
theorem idx_blue : idx_main_v8 (idx_main_v9 (ix3 n h v)) = ix4 n 2 h v := by
  funext a; refine Fin.ext ?_
  have hn := n.isLt; have hh := h.isLt; have hv := v.isLt
  match a with
  | ⟨0, _⟩ => show ((n.val * 1024 + h.val) * 1024 + v.val) / 1048576 = n.val; omega
  | ⟨1, _⟩ => rfl
  | ⟨2, _⟩ => show ((n.val * 1024 + h.val) * 1024 + v.val) / 1024 % 1024 = h.val; omega
  | ⟨3, _⟩ => show ((n.val * 1024 + h.val) * 1024 + v.val) % 1024 = v.val; omega

/-- The scaled red value of the pixel. -/
theorem red_scaled : val_main_v3 (F := Ideal) x (ix3 n h v) = scaled (x (ix4 n 0 h v)) := by
  rw [val_main_v3_apply, val_main_v1_apply, val_main_v0_apply, val_main_v2_apply, val_main_cst_apply, idx_red]
  rfl

/-- The scaled green value. -/
theorem green_scaled : val_main_v7 (F := Ideal) x (ix3 n h v) = scaled (x (ix4 n 1 h v)) := by
  rw [val_main_v7_apply, val_main_v5_apply, val_main_v4_apply, val_main_v6_apply, val_main_cst_0_apply, idx_green]
  rfl

/-- The scaled blue value. -/
theorem blue_scaled : val_main_v11 (F := Ideal) x (ix3 n h v) = scaled (x (ix4 n 2 h v)) := by
  rw [val_main_v11_apply, val_main_v9_apply, val_main_v8_apply, val_main_v10_apply, val_main_cst_1_apply, idx_blue]
  rfl

/-- The red cell: floor, conversion to a 32-bit integer, clamp into [0, 31]. -/
theorem red_cell : val_main_v14 (F := Ideal) x (ix3 n h v) = cell (x (ix4 n 0 h v)) := by
  rw [val_main_v14_apply, val_main_call0_v4_apply, val_main_call0_v3_apply, val_main_c_2_apply,
    val_main_call0_v2_apply, val_main_call0_v1_apply, val_main_call0_v0_apply, val_main_c_apply,
    val_main_v13_apply, val_main_v12_apply, red_scaled]
  rfl

/-- The green cell. -/
theorem green_cell : val_main_v17 (F := Ideal) x (ix3 n h v) = cell (x (ix4 n 1 h v)) := by
  rw [val_main_v17_apply, val_main_call1_v4_apply, val_main_call1_v3_apply, val_main_c_4_apply,
    val_main_call1_v2_apply, val_main_call1_v1_apply, val_main_call1_v0_apply, val_main_c_3_apply,
    val_main_v16_apply, val_main_v15_apply, green_scaled]
  rfl

/-- The blue cell. -/
theorem blue_cell : val_main_v20 (F := Ideal) x (ix3 n h v) = cell (x (ix4 n 2 h v)) := by
  rw [val_main_v20_apply, val_main_call2_v4_apply, val_main_call2_v3_apply, val_main_c_6_apply,
    val_main_call2_v2_apply, val_main_call2_v1_apply, val_main_call2_v0_apply, val_main_c_5_apply,
    val_main_v19_apply, val_main_v18_apply, blue_scaled]
  rfl

/-- The red fraction is the upper red weight. -/
theorem red_frac : val_main_v22 (F := Ideal) x (ix3 n h v) = wt (x (ix4 n 0 h v)) true := by
  rw [val_main_v22_apply, val_main_v21_apply, red_cell, red_scaled]
  rfl

/-- The green fraction is the upper green weight. -/
theorem green_frac : val_main_v24 (F := Ideal) x (ix3 n h v) = wt (x (ix4 n 1 h v)) true := by
  rw [val_main_v24_apply, val_main_v23_apply, green_cell, green_scaled]
  rfl

/-- The blue fraction is the upper blue weight. -/
theorem blue_frac : val_main_v26 (F := Ideal) x (ix3 n h v) = wt (x (ix4 n 2 h v)) true := by
  rw [val_main_v26_apply, val_main_v25_apply, blue_cell, blue_scaled]
  rfl

/-- One minus the blue fraction is the lower blue weight. -/
theorem blue_lower : val_main_v36 (F := Ideal) x (ix3 n h v) = wt (x (ix4 n 2 h v)) false := by
  rw [val_main_v36_apply, val_main_v35_apply, val_main_cst_10_apply, blue_frac]
  rfl

/-- One minus the green fraction is the lower green weight (its first copy in the program), -/
theorem green_lower : val_main_v38 (F := Ideal) x (ix3 n h v) = wt (x (ix4 n 1 h v)) false := by
  rw [val_main_v38_apply, val_main_v37_apply, val_main_cst_11_apply, green_frac]
  rfl

/-- (its second copy). -/
theorem green_lower' : val_main_v116 (F := Ideal) x (ix3 n h v) = wt (x (ix4 n 1 h v)) false := by
  rw [val_main_v116_apply, val_main_v115_apply, val_main_cst_30_apply, green_frac]
  rfl

/-- One minus the red fraction is the lower red weight: the program computes it four times. -/
theorem red_lower : val_main_v40 (F := Ideal) x (ix3 n h v) = wt (x (ix4 n 0 h v)) false := by
  rw [val_main_v40_apply, val_main_v39_apply, val_main_cst_12_apply, red_frac]
  rfl

theorem red_lower2 : val_main_v78 (F := Ideal) x (ix3 n h v) = wt (x (ix4 n 0 h v)) false := by
  rw [val_main_v78_apply, val_main_v77_apply, val_main_cst_21_apply, red_frac]
  rfl

theorem red_lower3 : val_main_v118 (F := Ideal) x (ix3 n h v) = wt (x (ix4 n 0 h v)) false := by
  rw [val_main_v118_apply, val_main_v117_apply, val_main_cst_31_apply, red_frac]
  rfl

theorem red_lower4 : val_main_v156 (F := Ideal) x (ix3 n h v) = wt (x (ix4 n 0 h v)) false := by
  rw [val_main_v156_apply, val_main_v155_apply, val_main_cst_40_apply, red_frac]
  rfl

/-- The base index: (blue cell · 33 + green cell) · 33 + red cell in 32-bit arithmetic; it does not wrap. -/
theorem base_at : (val_main_v33 (F := Ideal) x (ix3 n h v)).toNat
    = ((cell (x (ix4 n 2 h v))).toNat * 33 + (cell (x (ix4 n 1 h v))).toNat) * 33 + (cell (x (ix4 n 0 h v))).toNat := by
  rw [val_main_v33_apply, val_main_v32_apply, val_main_v31_apply, val_main_c_8_apply, val_main_v30_apply,
    val_main_v29_apply, val_main_v28_apply, val_main_c_7_apply, blue_cell, green_cell, red_cell]
  exact base_toNat _ _ _ (cell_toNat_le _) (cell_toNat_le _) (cell_toNat_le _)

end Pixel

/-! ## One corner of the cell -/

/-- A 32-bit constant at every pixel. -/
abbrev splatI (k : BitVec 32) : IVec S8x1024x1024 32 :=
  broadcastInDim S8x1024x1024 ![] bcast_S_S8x1024x1024 (constantI S_ 32 k)

/-- A corner's start indices: the base plus the corner's two constant offsets, and 35937 more where that sum is
    negative. -/
def cornerIdx (base : IVec S8x1024x1024 32) (k1 k2 : BitVec 32) : IVec S8x1024x1024 32 :=
  select (cmpi .slt (addi (addi base (splatI k1)) (splatI k2)) (splatI 0#32))
    (addi (addi (addi base (splatI k1)) (splatI k2)) (splatI 35937#32))
    (addi (addi base (splatI k1)) (splatI k2))

theorem cornerIdx_apply (base : IVec S8x1024x1024 32) (k1 k2 : BitVec 32) (p : S8x1024x1024.Idx) :
    cornerIdx base k1 k2 p
      = Scalar.select (IntOp.cmpi .slt (IntOp.addi (IntOp.addi (base p) k1) k2) 0#32)
          (IntOp.addi (IntOp.addi (IntOp.addi (base p) k1) k2) 35937#32) (IntOp.addi (IntOp.addi (base p) k1) k2) := rfl

/-- A corner's contribution as an image: the flat table looked up at the start indices, times the weights spread over
    the three channels, with batch and channel axes exchanged. -/
def cornerVal (lut : (⟨S3x33x33x33, .f32⟩ : BufTy).Contents (Elt Ideal)) (iv : IVec S8x1024x1024 32)
    (wv : FVec Ideal S8x1024x1024 .f32) : FVec Ideal S8x3x1024x1024 .f32 :=
  transpose S8x3x1024x1024 [1, 0, 2, 3]
    (mulf (Host.gather gd (val_main_v27 (F := Ideal) lut)
        (broadcastInDim S8x1024x1024x1 ![0, 1, 2] bcast_S8x1024x1024_S8x1024x1024x1_0_1_2 iv))
      (broadcastInDim S3x8x1024x1024 ![0, 1, 2, 3] bcast_S1x8x1024x1024_S3x8x1024x1024_0_1_2_3
        (broadcastInDim S1x8x1024x1024 ![1, 2, 3] bcast_S8x1024x1024_S1x8x1024x1024_1_2_3 wv)))
    transposes_S3x8x1024x1024_S8x3x1024x1024_1_0_2_3

/-- Read at pixel (n, h, w) and channel c: when the pixel's start index is the flat position of (b, g, r), the table
    entry (c, b, g, r) times the pixel's weight. -/
theorem cornerVal_at (lut : (⟨S3x33x33x33, .f32⟩ : BufTy).Contents (Elt Ideal)) (iv : IVec S8x1024x1024 32)
    (wv : FVec Ideal S8x1024x1024 .f32) (n : Fin 8) (c : Fin 3) (h v : Fin 1024) (b g r : ℕ)
    (hb : b < 33) (hg : g < 33) (hr : r < 33) (hm : (iv (ix3 n h v)).toInt.toNat = (b * 33 + g) * 33 + r) :
    cornerVal lut iv wv (ix4 n c h v) = tab lut c b g r * wv (ix3 n h v) := by
  unfold cornerVal
  refine (transpose_apply [1, 0, 2, 3] _ transposes_S3x8x1024x1024_S8x3x1024x1024_1_0_2_3 (ix4 n c h v) (ix4 c n h v)
    (fun a => match a with | ⟨0, _⟩ => rfl | ⟨1, _⟩ => rfl | ⟨2, _⟩ => rfl | ⟨3, _⟩ => rfl)).trans ?_
  have e1 : broadcastInDim S8x1024x1024x1 ![0, 1, 2] bcast_S8x1024x1024_S8x1024x1024x1_0_1_2 iv (ix4 n h v 0)
      = iv (ix3 n h v) :=
    broadcastInDim_apply _ bcast_S8x1024x1024_S8x1024x1024x1_0_1_2 iv (ix4 n h v 0) (ix3 n h v) (fun a => match a with
      | ⟨0, _⟩ => by show n.val = if (8 : Nat) = 1 then 0 else n.val; rw [if_neg (by decide)]
      | ⟨1, _⟩ => by show h.val = if (1024 : Nat) = 1 then 0 else h.val; rw [if_neg (by decide)]
      | ⟨2, _⟩ => by show v.val = if (1024 : Nat) = 1 then 0 else v.val; rw [if_neg (by decide)])
  have e2 : broadcastInDim S3x8x1024x1024 ![0, 1, 2, 3] bcast_S1x8x1024x1024_S3x8x1024x1024_0_1_2_3
      (broadcastInDim S1x8x1024x1024 ![1, 2, 3] bcast_S8x1024x1024_S1x8x1024x1024_1_2_3 wv) (ix4 c n h v)
      = wv (ix3 n h v) :=
    (broadcastInDim_apply _ bcast_S1x8x1024x1024_S3x8x1024x1024_0_1_2_3 _ (ix4 c n h v) (ix4 0 n h v)
      (fun a => match a with
      | ⟨0, _⟩ => by show 0 = if (1 : Nat) = 1 then 0 else c.val; rw [if_pos rfl]
      | ⟨1, _⟩ => by show n.val = if (8 : Nat) = 1 then 0 else n.val; rw [if_neg (by decide)]
      | ⟨2, _⟩ => by show h.val = if (1024 : Nat) = 1 then 0 else h.val; rw [if_neg (by decide)]
      | ⟨3, _⟩ => by show v.val = if (1024 : Nat) = 1 then 0 else v.val; rw [if_neg (by decide)])).trans
    (broadcastInDim_apply _ bcast_S8x1024x1024_S1x8x1024x1024_1_2_3 wv (ix4 0 n h v) (ix3 n h v)
      (fun a => match a with
      | ⟨0, _⟩ => by show n.val = if (8 : Nat) = 1 then 0 else n.val; rw [if_neg (by decide)]
      | ⟨1, _⟩ => by show h.val = if (1024 : Nat) = 1 then 0 else h.val; rw [if_neg (by decide)]
      | ⟨2, _⟩ => by show v.val = if (1024 : Nat) = 1 then 0 else v.val; rw [if_neg (by decide)]))
  have hlt : (b * 33 + g) * 33 + r < 35937 := by omega
  rw [mulf_apply, gather_at _ _ c n h v _ (by rw [e1]; exact hm) hlt, e2, table_at lut c b g r hb hg hr hlt]

section Corners
variable (lut : (⟨S3x33x33x33, .f32⟩ : BufTy).Contents (Elt Ideal))
  (x : (⟨S8x3x1024x1024, .f32⟩ : BufTy).Contents (Elt Ideal)) (n : Fin 8) (c : Fin 3) (h v : Fin 1024)

/-- THE CORNER (db, dg, dr): with offsets adding up to (db·33 + dg)·33 + dr and the three weight images reading the
    pixel's weights, the corner's image at the pixel is the specification's term. The start index stays inside the table because the
    cells are at most 31. -/
theorem corner_at (k1 k2 : BitVec 32) (wb wg wr : FVec Ideal S8x1024x1024 .f32) (db dg dr : Bool)
    (hk : k1.toNat + k2.toNat = (db.toNat * 33 + dg.toNat) * 33 + dr.toNat)
    (hwb : wb (ix3 n h v) = wt (x (ix4 n 2 h v)) db) (hwg : wg (ix3 n h v) = wt (x (ix4 n 1 h v)) dg)
    (hwr : wr (ix3 n h v) = wt (x (ix4 n 0 h v)) dr) :
    cornerVal lut (cornerIdx (val_main_v33 (F := Ideal) x) k1 k2) (mulf (mulf wb wg) wr) (ix4 n c h v)
      = term lut c (x (ix4 n 2 h v)) (x (ix4 n 1 h v)) (x (ix4 n 0 h v)) db dg dr := by
  have hB := cell_toNat_le (x (ix4 n 2 h v))
  have hG := cell_toNat_le (x (ix4 n 1 h v))
  have hR := cell_toNat_le (x (ix4 n 0 h v))
  have hdb : db.toNat ≤ 1 := by cases db <;> decide
  have hdg : dg.toNat ≤ 1 := by cases dg <;> decide
  have hdr : dr.toNat ≤ 1 := by cases dr <;> decide
  have hm : (cornerIdx (val_main_v33 (F := Ideal) x) k1 k2 (ix3 n h v)).toInt.toNat
      = (((cell (x (ix4 n 2 h v))).toNat + db.toNat) * 33 + ((cell (x (ix4 n 1 h v))).toNat + dg.toNat)) * 33
        + ((cell (x (ix4 n 0 h v))).toNat + dr.toNat) := by
    rw [cornerIdx_apply, start_toNat _ k1 k2 _ (base_at x n h v) (by omega)]
    omega
  rw [cornerVal_at lut _ _ n c h v _ _ _ (by omega) (by omega) (by omega) hm, mulf_apply, mulf_apply, hwb, hwg, hwr]
  rfl

/-- Corner (0, 0, 0). -/
theorem corner000 : val_main_v57 (F := Ideal) lut x (ix4 n c h v)
    = term lut c (x (ix4 n 2 h v)) (x (ix4 n 1 h v)) (x (ix4 n 0 h v)) false false false :=
  corner_at lut x n c h v 0#32 0#32 (val_main_v36 (F := Ideal) x) (val_main_v38 (F := Ideal) x)
    (val_main_v40 (F := Ideal) x) false false false (by decide) (blue_lower x n h v) (green_lower x n h v) (red_lower x n h v)

/-- Corner (0, 0, 1). -/
theorem corner001 : val_main_v75 (F := Ideal) lut x (ix4 n c h v)
    = term lut c (x (ix4 n 2 h v)) (x (ix4 n 1 h v)) (x (ix4 n 0 h v)) false false true :=
  corner_at lut x n c h v 0#32 1#32 (val_main_v36 (F := Ideal) x) (val_main_v38 (F := Ideal) x)
    (val_main_v22 (F := Ideal) x) false false true (by decide) (blue_lower x n h v) (green_lower x n h v) (red_frac x n h v)

/-- Corner (0, 1, 0). -/
theorem corner010 : val_main_v95 (F := Ideal) lut x (ix4 n c h v)
    = term lut c (x (ix4 n 2 h v)) (x (ix4 n 1 h v)) (x (ix4 n 0 h v)) false true false :=
  corner_at lut x n c h v 33#32 0#32 (val_main_v36 (F := Ideal) x) (val_main_v24 (F := Ideal) x)
    (val_main_v78 (F := Ideal) x) false true false (by decide) (blue_lower x n h v) (green_frac x n h v) (red_lower2 x n h v)

/-- Corner (0, 1, 1). -/
theorem corner011 : val_main_v113 (F := Ideal) lut x (ix4 n c h v)
    = term lut c (x (ix4 n 2 h v)) (x (ix4 n 1 h v)) (x (ix4 n 0 h v)) false true true :=
  corner_at lut x n c h v 33#32 1#32 (val_main_v36 (F := Ideal) x) (val_main_v24 (F := Ideal) x)
    (val_main_v22 (F := Ideal) x) false true true (by decide) (blue_lower x n h v) (green_frac x n h v) (red_frac x n h v)

/-- Corner (1, 0, 0). -/
theorem corner100 : val_main_v135 (F := Ideal) lut x (ix4 n c h v)
    = term lut c (x (ix4 n 2 h v)) (x (ix4 n 1 h v)) (x (ix4 n 0 h v)) true false false :=
  corner_at lut x n c h v 1089#32 0#32 (val_main_v26 (F := Ideal) x) (val_main_v116 (F := Ideal) x)
    (val_main_v118 (F := Ideal) x) true false false (by decide) (blue_frac x n h v) (green_lower' x n h v) (red_lower3 x n h v)

/-- Corner (1, 0, 1). -/
theorem corner101 : val_main_v153 (F := Ideal) lut x (ix4 n c h v)
    = term lut c (x (ix4 n 2 h v)) (x (ix4 n 1 h v)) (x (ix4 n 0 h v)) true false true :=
  corner_at lut x n c h v 1089#32 1#32 (val_main_v26 (F := Ideal) x) (val_main_v116 (F := Ideal) x)
    (val_main_v22 (F := Ideal) x) true false true (by decide) (blue_frac x n h v) (green_lower' x n h v) (red_frac x n h v)

/-- Corner (1, 1, 0). -/
theorem corner110 : val_main_v173 (F := Ideal) lut x (ix4 n c h v)
    = term lut c (x (ix4 n 2 h v)) (x (ix4 n 1 h v)) (x (ix4 n 0 h v)) true true false :=
  corner_at lut x n c h v 1122#32 0#32 (val_main_v26 (F := Ideal) x) (val_main_v24 (F := Ideal) x)
    (val_main_v156 (F := Ideal) x) true true false (by decide) (blue_frac x n h v) (green_frac x n h v) (red_lower4 x n h v)

/-- Corner (1, 1, 1). -/
theorem corner111 : val_main_v191 (F := Ideal) lut x (ix4 n c h v)
    = term lut c (x (ix4 n 2 h v)) (x (ix4 n 1 h v)) (x (ix4 n 0 h v)) true true true :=
  corner_at lut x n c h v 1122#32 1#32 (val_main_v26 (F := Ideal) x) (val_main_v24 (F := Ideal) x)
    (val_main_v22 (F := Ideal) x) true true true (by decide) (blue_frac x n h v) (green_frac x n h v) (red_frac x n h v)

/-- The result at a pixel and channel: the eight corners added onto zero in the program's order, which is the specification's. -/
theorem out_at : val_main_v192 (F := Ideal) lut x (ix4 n c h v)
    = blend lut c (x (ix4 n 2 h v)) (x (ix4 n 1 h v)) (x (ix4 n 0 h v)) := by
  rw [val_main_v192_apply, val_main_v174_apply, val_main_v154_apply, val_main_v136_apply, val_main_v114_apply,
    val_main_v96_apply, val_main_v76_apply, val_main_v58_apply, val_main_v34_apply, val_main_cst_9_apply,
    corner000, corner001, corner010, corner011, corner100, corner101, corner110, corner111]
  show Ideal.ofBits .f32 0x00000000#32 + _ + _ + _ + _ + _ + _ + _ + _ = _
  rw [Ideal.ofBits_zero_f32]
  rfl

end Corners

/-- The reference's result, as a function of its two arguments at the ideal values, is the interpolated image. -/
theorem ref_eq (lut : (⟨S3x33x33x33, .f32⟩ : BufTy).Contents (Elt Ideal)) (x : (⟨S8x3x1024x1024, .f32⟩ : BufTy).Contents (Elt Ideal)) :
    Cert.ReferenceIdeal.Read.val_main_v192 (F := Ideal) lut x = G lut x := by
  funext i
  obtain ⟨n, c, h, v, rfl⟩ : ∃ (n : Fin 8) (c : Fin 3) (h v : Fin 1024), i = ix4 n c h v :=
    ⟨i 0, i 1, i 2, i 3, eq_ix4 i⟩
  exact out_at lut x n c h v

end Cert.Trilinear.Ref

end
-- ==== Proof.Finite.lean ====
import proofs.«120387_j39822936768697_1_alg».proof.Pre_finite_inputs
import proofs.«120387_j39822936768697_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Trilinear.Finite

open Idealize.ShloMosaic Idealize.ShloMosaic.ValueIdx Cert.Pre_finite_inputs

/-- The shape of rank zero has exactly one index. -/
instance subsingleton_S_Idx : Subsingleton S_.Idx := ⟨fun a b => funext fun d => d.elim0⟩

/-- The word `0x7F800000` read as an `f32` is `+∞`. -/
theorem ofBits_inf : Ideal.ofBits .f32 0x7F800000#32 = (⊤ : EReal) := by
  simp [Ideal.ofBits, Ideal.ieee]

/-- One entry: if `|v| < +∞` holds (the comparison gives the bit 1), then `v` is a real number. The two infinities
    have absolute value `⊤`, which is not below `⊤`. -/
theorem real_of_abs_lt_inf (v : EReal)
    (h : Ideal.cmp .olt (max v (-v)) (Ideal.ofBits .f32 0x7F800000#32) = 1#1) : ∃ r : ℝ, v = (r : EReal) := by
  rw [ofBits_inf] at h
  unfold Ideal.cmp at h
  induction v using EReal.rec with
  | bot => simp at h
  | coe r => exact ⟨r, rfl⟩
  | top => simp at h

/-- One input of any shape: if the conjunction over every entry of `|v i| < +∞` is 1, every entry is real. -/
theorem real_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1) :
    ∀ i, ∃ r : ℝ, v i = (r : EReal) := by
  intro i
  have hi := Host.reduce_andi_all _ _ hr hu ValueIdx.ix0 e i
  exact real_of_abs_lt_inf (v i) hi

/-- Under the precondition (every entry of both inputs has absolute value below +∞) every entry of the table and of the
    image is a real number. -/
theorem finite_of_pre (lut : FVec Ideal S3x33x33x33 .f32) (x : FVec Ideal S8x3x1024x1024 .f32)
    (h : Cert.Pre_finite_inputs.fn (F := Ideal) lut x = fun _ => 1#1) :
    (∀ i, ∃ r : ℝ, lut i = (r : EReal)) ∧ (∀ i, ∃ r : ℝ, x i = (r : EReal)) := by
  have h0 := congrFun h ValueIdx.ix0
  dsimp only [Cert.Pre_finite_inputs.fn] at h0
  obtain ⟨h1, h2⟩ := IntOp.andi_eq_one.1 h0
  exact ⟨real_of_all lut _ _ _ h1, real_of_all x _ _ _ h2⟩

end Cert.Trilinear.Finite

end
-- ==== Proof.lean ====
/-
  Trilinear interpolation in a 3 × 33 × 33 × 33 colour table: a kernel that contracts the table axis by axis against
  weight matrices, and a reference that gathers the eight corners of each pixel's cell and adds their weighted entries.

  Both compute, for pixel (n, h, w) and channel c, from the pixel's three colour values scaled by 32: the cell (the floor,
  clamped into [0, 31]) and the fraction on each axis, and then the sum over the eight corners of the cell of the table
  entry times the three weights (1 − fraction at the lower neighbour, fraction at the upper). The kernel's weight matrix
  of an axis has 1 − fraction in the cell's row, fraction in the next row and zero elsewhere, so each of its three
  contractions keeps two terms; the nested result expands to the eight-corner sum by distributivity, which holds because
  under the precondition every table entry and every weight is a real number. The kernel's frames are the generated
  ones; the reference's frame is its generated run with the result dropped; the idealization rewrote nothing.
-/
import proofs.«120387_j39822936768697_1_alg».proof.Defs
import proofs.«120387_j39822936768697_1_alg».proof.Proof.Gen.Kernel
import proofs.«120387_j39822936768697_1_alg».proof.Proof.Gen.Kernel.Skeleton
import proofs.«120387_j39822936768697_1_alg».proof.Proof.Gen.Kernel.Launch
import proofs.«120387_j39822936768697_1_alg».proof.Proof.Gen.Kernel.Points
import proofs.«120387_j39822936768697_1_alg».proof.Proof.Gen.Kernel.Frame
import proofs.«120387_j39822936768697_1_alg».proof.Proof.Gen.KernelIdeal
import proofs.«120387_j39822936768697_1_alg».proof.Proof.Gen.KernelIdeal.Skeleton
import proofs.«120387_j39822936768697_1_alg».proof.Proof.Gen.KernelIdeal.Launch
import proofs.«120387_j39822936768697_1_alg».proof.Proof.Gen.KernelIdeal.Points
import proofs.«120387_j39822936768697_1_alg».proof.Proof.Gen.KernelIdeal.Frame
import proofs.«120387_j39822936768697_1_alg».proof.Proof.Gen.ReferenceIdeal
import proofs.«120387_j39822936768697_1_alg».proof.Proof.Gen.Pre_finite_inputs
import proofs.«120387_j39822936768697_1_alg».proof.Proof.Gen.KernelIdeal.Value
import proofs.«120387_j39822936768697_1_alg».proof.Proof.Gen.ReferenceIdeal.Run
import proofs.«120387_j39822936768697_1_alg».proof.Proof.Gen.ReferenceIdeal.Read
import proofs.«120387_j39822936768697_1_alg».proof.Proof.KernelBlocks
import proofs.«120387_j39822936768697_1_alg».proof.Proof.RefValue
import proofs.«120387_j39822936768697_1_alg».proof.Proof.Finite
import Idealize.ShloMosaic.Adequacy
import Idealize.ShloMosaic.Init

noncomputable section

namespace Cert.Proof

open Idealize.ShloMosaic Idealize.SL.Sem Cert.Trilinear

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the table and the image, both finite, the kernel's result array and the reference's
    both end at the interpolated image of the two arguments. -/
theorem algebraic : Cert.algebraic_KernelIdeal_ReferenceIdeal := by
  intro m ρ m' ρ' hpre hagree
  have hfin : ∀ c : Dev Cert.KernelIdeal.nD,
      (∀ i, ∃ q : ℝ, Cert.KernelIdeal.Blocks.lutArr m c i = (q : EReal))
        ∧ (∀ i, ∃ q : ℝ, Cert.KernelIdeal.Blocks.imgArr m c i = (q : EReal)) :=
    fun c => Cert.Trilinear.Finite.finite_of_pre _ _ (hpre c)
  refine ⟨fun c => G (Cert.KernelIdeal.Blocks.lutArr m c) (Cert.KernelIdeal.Blocks.imgArr m c),
    Cert.KernelIdeal.Blocks.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v192_eq, Cert.Trilinear.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
